-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x165 : Shape := ⟨2, ![500000, 165]⟩
abbrev S2x2000000 : Shape := ⟨2, ![2, 2000000]⟩
abbrev S2000000 : Shape := ⟨1, ![2000000]⟩
abbrev S500000x32 : Shape := ⟨2, ![500000, 32]⟩
abbrev S165x32 : Shape := ⟨2, ![165, 32]⟩
abbrev S1x32 : Shape := ⟨2, ![1, 32]⟩
abbrev S32x32 : Shape := ⟨2, ![32, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S500000x165 : S_.BroadcastsInDim S500000x165 (![] : Fin 0 → Fin S500000x165.rank)
  reducesTo_S500000x165_S_d0_1 : S500000x165.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S500000x32 : S_.BroadcastsInDim S500000x32 (![] : Fin 0 → Fin S500000x32.rank)
  reducesTo_S500000x32_S_d0_1 : S500000x32.ReducesTo [0, 1] S_
  bcast_S_S165x32 : S_.BroadcastsInDim S165x32 (![] : Fin 0 → Fin S165x32.rank)
  reducesTo_S165x32_S_d0_1 : S165x32.ReducesTo [0, 1] S_
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg22 : FVec F S2 .f32) (main_v98 : IVec S_ 1) (main_v101 : IVec S32x2 1) (main_c_39 : IVec S_ 1) : IVec S_ 1 :=
  let main_v102 : IVec S_ 1 := (fun x v => Host.reduce IntOp.andi x v reducesTo_S32x2_S_d0_1 h_S_) main_v101 main_c_39
  let main_v103 : IVec S_ 1 := andi main_v98 main_v102
  let main_v104 : FVec F S2 .f32 := Host.absf main_arg22
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg19 : FVec F S32 .f32) (main_arg20 : FVec F S32 .f32) (main_arg21 : FVec F S32x2 .f32) (main_arg22 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x2 .f32 := Host.absf main_arg21
  let main_cst_38 : FVec F S_ .f32 := constant S_ .f32 0x7F800000#32
  let main_v100 : FVec F S32x2 .f32 := broadcastInDim S32x2 ![] bcast_S_S32x2 main_cst_38
  let main_v101 : IVec S32x2 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) (main_v63 : IVec S_ 1) (main_v67 : IVec S_ 1) : IVec S_ 1 :=
  let main_v68 : IVec S_ 1 := andi main_v63 main_v67
  let main_v69 : FVec F S32x32 .f32 := Host.absf main_arg15
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32x32 .f32 := Host.absf main_arg16
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S1x32 .f32) (main_arg13 : FVec F S32x32 .f32) (main_arg14 : FVec F S32x32 .f32) (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1x32 .f32 := Host.absf main_arg12
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32x32 .f32 := Host.absf main_arg14
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S165x32 .f32) (main_arg9 : FVec F S1x32 .f32) (main_arg10 : FVec F S1x32 .f32) (main_arg11 : FVec F S1x32 .f32) (main_arg12 : FVec F S1x32 .f32) (main_arg13 : FVec F S32x32 .f32) (main_arg14 : FVec F S32x32 .f32) (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) (main_v33 : IVec S_ 1) : IVec S_ 1 :=
  let main_v34 : FVec F S165x32 .f32 := Host.absf main_arg8
  let main_cst_12 : FVec F S_ .f32 := constant S_ .f32 0x7F800000#32
  let main_v35 : FVec F S165x32 .f32 := broadcastInDim S165x32 ![] bcast_S_S165x32 main_cst_12
  let main_v36 : IVec S165x32 1 := cmpf .olt main_v34 main_v35
  let main_c_13 : IVec S_ 1 := constantI S_ 1 1#1
  let main_v37 : IVec S_ 1 := (fun x v => Host.reduce IntOp.andi x v reducesTo_S165x32_S_d0_1 h_S_) main_v36 main_c_13
  let main_v38 : IVec S_ 1 := andi main_v33 main_v37
  let main_v39 : FVec F S1x32 .f32 := Host.absf main_arg9
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1x32 .f32 := Host.absf main_arg10
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1x32 .f32 := Host.absf main_arg11
  let main_cst_18 : FVec F S_ .f32 := constant S_ .f32 0x7F800000#32
  let main_v50 : FVec F S1x32 .f32 := broadcastInDim S1x32 ![] bcast_S_S1x32 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S165x32 .f32) (main_arg6 : FVec F S165x32 .f32) (main_arg7 : FVec F S165x32 .f32) (main_arg8 : FVec F S165x32 .f32) (main_arg9 : FVec F S1x32 .f32) (main_arg10 : FVec F S1x32 .f32) (main_arg11 : FVec F S1x32 .f32) (main_arg12 : FVec F S1x32 .f32) (main_arg13 : FVec F S32x32 .f32) (main_arg14 : FVec F S32x32 .f32) (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) (main_v13 : IVec S_ 1) (main_v16 : IVec S500000x32 1) : IVec S_ 1 :=
  let main_c_5 : IVec S_ 1 := constantI S_ 1 1#1
  let main_v17 : IVec S_ 1 := (fun x v => Host.reduce IntOp.andi x v reducesTo_S500000x32_S_d0_1 h_S_) main_v16 main_c_5
  let main_v18 : IVec S_ 1 := andi main_v13 main_v17
  let main_v19 : FVec F S165x32 .f32 := Host.absf main_arg5
  let main_cst_6 : FVec F S_ .f32 := constant S_ .f32 0x7F800000#32
  let main_v20 : FVec F S165x32 .f32 := broadcastInDim S165x32 ![] bcast_S_S165x32 main_cst_6
  let main_v21 : IVec S165x32 1 := cmpf .olt main_v19 main_v20
  let main_c_7 : IVec S_ 1 := constantI S_ 1 1#1
  let main_v22 : IVec S_ 1 := (fun x v => Host.reduce IntOp.andi x v reducesTo_S165x32_S_d0_1 h_S_) main_v21 main_c_7
  let main_v23 : IVec S_ 1 := andi main_v18 main_v22
  let main_v24 : FVec F S165x32 .f32 := Host.absf main_arg6
  let main_cst_8 : FVec F S_ .f32 := constant S_ .f32 0x7F800000#32
  let main_v25 : FVec F S165x32 .f32 := broadcastInDim S165x32 ![] bcast_S_S165x32 main_cst_8
  let main_v26 : IVec S165x32 1 := cmpf .olt main_v24 main_v25
  let main_c_9 : IVec S_ 1 := constantI S_ 1 1#1
  let main_v27 : IVec S_ 1 := (fun x v => Host.reduce IntOp.andi x v reducesTo_S165x32_S_d0_1 h_S_) main_v26 main_c_9
  let main_v28 : IVec S_ 1 := andi main_v23 main_v27
  let main_v29 : FVec F S165x32 .f32 := Host.absf main_arg7
  let main_cst_10 : FVec F S_ .f32 := constant S_ .f32 0x7F800000#32
  let main_v30 : FVec F S165x32 .f32 := broadcastInDim S165x32 ![] bcast_S_S165x32 main_cst_10
  let main_v31 : IVec S165x32 1 := cmpf .olt main_v29 main_v30
  let main_c_11 : IVec S_ 1 := constantI S_ 1 1#1
  let main_v32 : IVec S_ 1 := (fun x v => Host.reduce IntOp.andi x v reducesTo_S165x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S500000x165 .f32) (main_arg1 : IVec S2x2000000 32) (main_arg2 : FVec F S2000000 .f32) (main_arg3 : FVec F S500000x32 .f32) (main_arg4 : FVec F S500000x32 .f32) (main_arg5 : FVec F S165x32 .f32) (main_arg6 : FVec F S165x32 .f32) (main_arg7 : FVec F S165x32 .f32) (main_arg8 : FVec F S165x32 .f32) (main_arg9 : FVec F S1x32 .f32) (main_arg10 : FVec F S1x32 .f32) (main_arg11 : FVec F S1x32 .f32) (main_arg12 : FVec F S1x32 .f32) (main_arg13 : FVec F S32x32 .f32) (main_arg14 : FVec F S32x32 .f32) (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) : IVec S_ 1 :=
  let main_v0 : FVec F S500000x165 .f32 := Host.absf main_arg0
  let main_cst : FVec F S_ .f32 := constant S_ .f32 0x7F800000#32
  let main_v1 : FVec F S500000x165 .f32 := broadcastInDim S500000x165 ![] bcast_S_S500000x165 main_cst
  let main_v2 : IVec S500000x165 1 := cmpf .olt main_v0 main_v1
  let main_c : IVec S_ 1 := constantI S_ 1 1#1
  let main_v3 : IVec S_ 1 := (fun x v => Host.reduce IntOp.andi x v reducesTo_S500000x165_S_d0_1 h_S_) main_v2 main_c
  let main_v4 : FVec F S2000000 .f32 := Host.absf main_arg2
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S500000x32 .f32 := Host.absf main_arg3
  let main_cst_2 : FVec F S_ .f32 := constant S_ .f32 0x7F800000#32
  let main_v10 : FVec F S500000x32 .f32 := broadcastInDim S500000x32 ![] bcast_S_S500000x32 main_cst_2
  let main_v11 : IVec S500000x32 1 := cmpf .olt main_v9 main_v10
  let main_c_3 : IVec S_ 1 := constantI S_ 1 1#1
  let main_v12 : IVec S_ 1 := (fun x v => Host.reduce IntOp.andi x v reducesTo_S500000x32_S_d0_1 h_S_) main_v11 main_c_3
  let main_v13 : IVec S_ 1 := andi main_v8 main_v12
  let main_v14 : FVec F S500000x32 .f32 := Host.absf main_arg4
  let main_cst_4 : FVec F S_ .f32 := constant S_ .f32 0x7F800000#32
  let main_v15 : FVec F S500000x32 .f32 := broadcastInDim S500000x32 ![] bcast_S_S500000x32 main_cst_4
  let main_v16 : IVec S500000x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S500000x165 : Shape := ⟨2, ![500000, 165]⟩
abbrev S2x2000000 : Shape := ⟨2, ![2, 2000000]⟩
abbrev S2000000 : Shape := ⟨1, ![2000000]⟩
abbrev S500000x32 : Shape := ⟨2, ![500000, 32]⟩
abbrev S165x32 : Shape := ⟨2, ![165, 32]⟩
abbrev S1x32 : Shape := ⟨2, ![1, 32]⟩
abbrev S32x32 : Shape := ⟨2, ![32, 32]⟩
abbrev S32 : Shape := ⟨1, ![32]⟩
abbrev S32x2 : Shape := ⟨2, ![32, 2]⟩
abbrev S2 : Shape := ⟨1, ![2]⟩
abbrev S1x2 : Shape := ⟨2, ![1, 2]⟩
abbrev S500000x2 : Shape := ⟨2, ![500000, 2]⟩
abbrev S5000x165 : Shape := ⟨2, ![5000, 165]⟩
abbrev S5000x32 : Shape := ⟨2, ![5000, 32]⟩
abbrev S5000x2 : Shape := ⟨2, ![5000, 2]⟩

abbrev nBuf : Space → Nat
  | .hbm => 35
  | .vmem => 26
  | .smem => 0
  | _ => 0

abbrev bufTy : (tb : Table) → Fin (tcTables nBuf tb) → BufTy
  | .hbm, ⟨0, _⟩ => ⟨S500000x165, .f32⟩
  | .hbm, ⟨1, _⟩ => ⟨S2x2000000, .i32⟩
  | .hbm, ⟨2, _⟩ => ⟨S2000000, .f32⟩
  | .hbm, ⟨3, _⟩ => ⟨S500000x32, .f32⟩
  | .hbm, ⟨4, _⟩ => ⟨S500000x32, .f32⟩
  | .hbm, ⟨5, _⟩ => ⟨S165x32, .f32⟩
  | .hbm, ⟨6, _⟩ => ⟨S165x32, .f32⟩
  | .hbm, ⟨7, _⟩ => ⟨S165x32, .f32⟩
  | .hbm, ⟨8, _⟩ => ⟨S165x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32x2, .f32⟩
  | .hbm, ⟨22, _⟩ => ⟨S2, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1x2, .f32⟩
  | .hbm, ⟨32, _⟩ => ⟨S500000x2, .f32⟩
  | .hbm, ⟨33, _⟩ => ⟨S500000x32, .f32⟩
  | .hbm, ⟨34, _⟩ => ⟨S500000x32, .f32⟩
  | .local _ .vmem, ⟨0, _⟩ => ⟨S5000x165, .f32⟩
  | .local _ .vmem, ⟨1, _⟩ => ⟨S5000x165, .f32⟩
  | .local _ .vmem, ⟨2, _⟩ => ⟨S5000x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S165x32, .f32⟩
  | .local _ .vmem, ⟨7, _⟩ => ⟨S165x32, .f32⟩
  | .local _ .vmem, ⟨8, _⟩ => ⟨S165x32, .f32⟩
  | .local _ .vmem, ⟨9, _⟩ => ⟨S165x32, .f32⟩
  | .local _ .vmem, ⟨10, _⟩ => ⟨S32x32, .f32⟩
  | .local _ .vmem, ⟨11, _⟩ => ⟨S32x32, .f32⟩
  | .local _ .vmem, ⟨12, _⟩ => ⟨S32x32, .f32⟩
  | .local _ .vmem, ⟨13, _⟩ => ⟨S32x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S32x2, .f32⟩
  | .local _ .vmem, ⟨19, _⟩ => ⟨S1x2, .f32⟩
  | .local _ .vmem, ⟨20, _⟩ => ⟨S5000x2, .f32⟩
  | .local _ .vmem, ⟨21, _⟩ => ⟨S5000x2, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | _, _ => ⟨S500000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9_0 : Ref sig .tc := ⟨.hbm, 32, rfl⟩
abbrev main_v9_1 : Ref sig .tc := ⟨.hbm, 33, rfl⟩
abbrev main_v9_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S165x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S165x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S165x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S165x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S5000x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S5000x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S5000x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S32_S1x32_1 : S32.BroadcastsInDim S1x32 (![1] : Fin 1 → Fin S1x32.rank)
  bcast_S2_S1x2_1 : S2.BroadcastsInDim S1x2 (![1] : Fin 1 → Fin S1x2.rank)
  inb_S5000x165_S5000x165_0_0 : ∀ a, (![0, 0] : Fin 2 → Nat) a + S5000x165.size a ≤ S5000x165.size a
  h_S5000x165 : 0 < S5000x165.numel
  inb_S5000x32_S5000x32_0_0 : ∀ a, (![0, 0] : Fin 2 → Nat) a + S5000x32.size a ≤ S5000x32.size a
  h_S5000x32 : 0 < S5000x32.numel
  inb_S165x32_S165x32_0_0 : ∀ a, (![0, 0] : Fin 2 → Nat) a + S165x32.size a ≤ S165x32.size a
  h_S165x32 : 0 < S165x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x165_S165x32_S5000x32_1_0_0_1_n_n_wf : DotDims.WF S5000x165 S165x32 S5000x32 [1] [0] [0] [1] [] []
  dot_S5000x32_S32x32_S5000x32_1_0_0_1_n_n_wf : DotDims.WF S5000x32 S32x32 S5000x32 [1] [0] [0] [1] [] []
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x165.size a ≤ S500000x165.size a
  hwx0_0 : ∀ i : grid0.Coords, EltTy.bits .f32 = 32 ∨ (Rect.block (s := S500000x165) S5000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S500000x32.size a
  hwx0_1 : ∀ i : grid0.Coords, EltTy.bits .f32 = 32 ∨ (Rect.block (s := S500000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S500000x32.size a
  hwx0_2 : ∀ i : grid0.Coords, EltTy.bits .f32 = 32 ∨ (Rect.block (s := S500000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S165x32.size a ≤ S165x32.size a
  hwx0_3 : ∀ i : grid0.Coords, EltTy.bits .f32 = 32 ∨ (Rect.block (s := S165x32) S165x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S165x32.size a ≤ S165x32.size a
  hwx0_4 : ∀ i : grid0.Coords, EltTy.bits .f32 = 32 ∨ (Rect.block (s := S165x32) S165x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S165x32.size a ≤ S165x32.size a
  hwx0_5 : ∀ i : grid0.Coords, EltTy.bits .f32 = 32 ∨ (Rect.block (s := S165x32) S165x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S165x32.size a ≤ S165x32.size a
  hwx0_6 : ∀ i : grid0.Coords, EltTy.bits .f32 = 32 ∨ (Rect.block (s := S165x32) S165x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .f32 = 32 ∨ (Rect.block (s := S32x32) S32x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x2.size a ≤ S32x2.size a
  hwx0_15 : ∀ i : grid0.Coords, EltTy.bits .f32 = 32 ∨ (Rect.block (s := S32x2) S32x2.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2.size a ≤ S1x2.size a
  hwx0_16 : ∀ i : grid0.Coords, EltTy.bits .f32 = 32 ∨ (Rect.block (s := S1x2) S1x2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S5000x2.size a ≤ S500000x2.size a
  hwx0_17 : ∀ i : grid0.Coords, EltTy.bits .f32 = 32 ∨ (Rect.block (s := S500000x2) S5000x2.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S5000x32.size a ≤ S500000x32.size a
  hwx0_18 : ∀ i : grid0.Coords, EltTy.bits .f32 = 32 ∨ (Rect.block (s := S500000x32) S5000x32.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S5000x32.size a ≤ S500000x32.size a
  hwx0_19 : ∀ i : grid0.Coords, EltTy.bits .f32 = 32 ∨ (Rect.block (s := S500000x32) S5000x32.size (cc0_transform_19 i) (hinb0_19 i)).WholeWords (EltTy.packing .f32)

variable [Facts₀]

def dot_S5000x165_S165x32_S5000x32_1_0_0_1_n_n : DotDims S5000x165 S165x32 S5000x32 where
  lhsContracting := [1]
  rhsContracting := [0]
  lhsNonContracting := [0]
  rhsNonContracting := [1]
  lhsBatch := []
  rhsBatch := []
  wf := dot_S5000x165_S165x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S165x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S165x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S165x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S165x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg21) S32x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9_0) S5000x2.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v9_1) S5000x32.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v9_2) S5000x32.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S500000x165 : Shape := ⟨2, ![500000, 165]⟩
abbrev S2x2000000 : Shape := ⟨2, ![2, 2000000]⟩
abbrev S2000000 : Shape := ⟨1, ![2000000]⟩
abbrev S500000x32 : Shape := ⟨2, ![500000, 32]⟩
abbrev S165x32 : Shape := ⟨2, ![165, 32]⟩
abbrev S1x32 : Shape := ⟨2, ![1, 32]⟩
abbrev S32x32 : Shape := ⟨2, ![32, 32]⟩
abbrev S32 : Shape := ⟨1, ![32]⟩
abbrev S32x2 : Shape := ⟨2, ![32, 2]⟩
abbrev S2 : Shape := ⟨1, ![2]⟩
abbrev S_ : Shape := ⟨0, ![]⟩
abbrev S500000x2 : Shape := ⟨2, ![500000, 2]⟩
abbrev S1x2 : Shape := ⟨2, ![1, 2]⟩

abbrev nBuf : Space → Nat
  | .hbm => 92
  | .vmem => 0
  | .smem => 0
  | _ => 0

abbrev bufTy : (tb : Table) → Fin (tcTables nBuf tb) → BufTy
  | .hbm, ⟨0, _⟩ => ⟨S500000x165, .f32⟩
  | .hbm, ⟨1, _⟩ => ⟨S2x2000000, .i32⟩
  | .hbm, ⟨2, _⟩ => ⟨S2000000, .f32⟩
  | .hbm, ⟨3, _⟩ => ⟨S500000x32, .f32⟩
  | .hbm, ⟨4, _⟩ => ⟨S500000x32, .f32⟩
  | .hbm, ⟨5, _⟩ => ⟨S165x32, .f32⟩
  | .hbm, ⟨6, _⟩ => ⟨S165x32, .f32⟩
  | .hbm, ⟨7, _⟩ => ⟨S165x32, .f32⟩
  | .hbm, ⟨8, _⟩ => ⟨S165x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32x2, .f32⟩
  | .hbm, ⟨22, _⟩ => ⟨S2, .f32⟩
  | .hbm, ⟨23, _⟩ => ⟨S500000x32, .f32⟩
  | .hbm, ⟨24, _⟩ => ⟨S500000x32, .f32⟩
  | .hbm, ⟨25, _⟩ => ⟨S500000x32, .f32⟩
  | .hbm, ⟨26, _⟩ => ⟨S1x32, .f32⟩
  | .hbm, ⟨27, _⟩ => ⟨S500000x32, .f32⟩
  | .hbm, ⟨28, _⟩ => ⟨S500000x32, .f32⟩
  | .hbm, ⟨29, _⟩ => ⟨S500000x32, .f32⟩
  | .hbm, ⟨30, _⟩ => ⟨S500000x32, .f32⟩
  | .hbm, ⟨31, _⟩ => ⟨S500000x32, .f32⟩
  | .hbm, ⟨32, _⟩ => ⟨S500000x32, .f32⟩
  | .hbm, ⟨33, _⟩ => ⟨S_, .f32⟩
  | .hbm, ⟨34, _⟩ => ⟨S500000x32, .f32⟩
  | .hbm, ⟨35, _⟩ => ⟨S500000x32, .f32⟩
  | .hbm, ⟨36, _⟩ => ⟨S_, .f32⟩
  | .hbm, ⟨37, _⟩ => ⟨S500000x32, .f32⟩
  | .hbm, ⟨38, _⟩ => ⟨S500000x32, .f32⟩
  | .hbm, ⟨39, _⟩ => ⟨S500000x32, .f32⟩
  | .hbm, ⟨40, _⟩ => ⟨S500000x32, .f32⟩
  | .hbm, ⟨41, _⟩ => ⟨S500000x32, .f32⟩
  | .hbm, ⟨42, _⟩ => ⟨S1x32, .f32⟩
  | .hbm, ⟨43, _⟩ => ⟨S500000x32, .f32⟩
  | .hbm, ⟨44, _⟩ => ⟨S500000x32, .f32⟩
  | .hbm, ⟨45, _⟩ => ⟨S500000x32, .f32⟩
  | .hbm, ⟨46, _⟩ => ⟨S500000x32, .f32⟩
  | .hbm, ⟨47, _⟩ => ⟨S500000x32, .f32⟩
  | .hbm, ⟨48, _⟩ => ⟨S500000x32, .f32⟩
  | .hbm, ⟨49, _⟩ => ⟨S_, .f32⟩
  | .hbm, ⟨50, _⟩ => ⟨S500000x32, .f32⟩
  | .hbm, ⟨51, _⟩ => ⟨S500000x32, .f32⟩
  | .hbm, ⟨52, _⟩ => ⟨S_, .f32⟩
  | .hbm, ⟨53, _⟩ => ⟨S500000x32, .f32⟩
  | .hbm, ⟨54, _⟩ => ⟨S500000x32, .f32⟩
  | .hbm, ⟨55, _⟩ => ⟨S500000x32, .f32⟩
  | .hbm, ⟨56, _⟩ => ⟨S500000x32, .f32⟩
  | .hbm, ⟨57, _⟩ => ⟨S500000x32, .f32⟩
  | .hbm, ⟨58, _⟩ => ⟨S1x32, .f32⟩
  | .hbm, ⟨59, _⟩ => ⟨S500000x32, .f32⟩
  | .hbm, ⟨60, _⟩ => ⟨S500000x32, .f32⟩
  | .hbm, ⟨61, _⟩ => ⟨S500000x32, .f32⟩
  | .hbm, ⟨62, _⟩ => ⟨S500000x32, .f32⟩
  | .hbm, ⟨63, _⟩ => ⟨S500000x32, .f32⟩
  | .hbm, ⟨64, _⟩ => ⟨S500000x32, .f32⟩
  | .hbm, ⟨65, _⟩ => ⟨S500000x32, .f32⟩
  | .hbm, ⟨66, _⟩ => ⟨S500000x32, .f32⟩
  | .hbm, ⟨67, _⟩ => ⟨S500000x32, .f32⟩
  | .hbm, ⟨68, _⟩ => ⟨S500000x32, .f32⟩
  | .hbm, ⟨69, _⟩ => ⟨S500000x32, .f32⟩
  | .hbm, ⟨70, _⟩ => ⟨S1x32, .f32⟩
  | .hbm, ⟨71, _⟩ => ⟨S500000x32, .f32⟩
  | .hbm, ⟨72, _⟩ => ⟨S500000x32, .f32⟩
  | .hbm, ⟨73, _⟩ => ⟨S500000x32, .f32⟩
  | .hbm, ⟨74, _⟩ => ⟨S500000x32, .f32⟩
  | .hbm, ⟨75, _⟩ => ⟨S500000x32, .f32⟩
  | .hbm, ⟨76, _⟩ => ⟨S500000x32, .f32⟩
  | .hbm, ⟨77, _⟩ => ⟨S_, .f32⟩
  | .hbm, ⟨78, _⟩ => ⟨S500000x32, .f32⟩
  | .hbm, ⟨79, _⟩ => ⟨S500000x32, .f32⟩
  | .hbm, ⟨80, _⟩ => ⟨S_, .f32⟩
  | .hbm, ⟨81, _⟩ => ⟨S500000x32, .f32⟩
  | .hbm, ⟨82, _⟩ => ⟨S500000x32, .f32⟩
  | .hbm, ⟨83, _⟩ => ⟨S500000x32, .f32⟩
  | .hbm, ⟨84, _⟩ => ⟨S500000x32, .f32⟩
  | .hbm, ⟨85, _⟩ => ⟨S_, .f32⟩
  | .hbm, ⟨86, _⟩ => ⟨S500000x32, .f32⟩
  | .hbm, ⟨87, _⟩ => ⟨S500000x32, .f32⟩
  | .hbm, ⟨88, _⟩ => ⟨S500000x2, .f32⟩
  | .hbm, ⟨89, _⟩ => ⟨S1x2, .f32⟩
  | .hbm, ⟨90, _⟩ => ⟨S500000x2, .f32⟩
  | .hbm, ⟨91, _⟩ => ⟨S500000x2, .f32⟩
  | _, _ => ⟨S500000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_1 : Ref sig .tc := ⟨.hbm, 49, rfl⟩
abbrev main_v24 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call0_cst : Ref sig .tc := ⟨.hbm, 85, rfl⟩
abbrev main_call0_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S500000x165_S165x32_S500000x32_1_0_0_1_n_n_wf : DotDims.WF S500000x165 S165x32 S500000x32 [1] [0] [0] [1] [] []
  dot_S500000x32_S32x32_S500000x32_1_0_0_1_n_n_wf : DotDims.WF S500000x32 S32x32 S500000x32 [1] [0] [0] [1] [] []
  dot_S500000x32_S32x2_S500000x2_1_0_0_1_n_n_wf : DotDims.WF S500000x32 S32x2 S500000x2 [1] [0] [0] [1] [] []

variable [Facts₀]

def dot_S500000x165_S165x32_S500000x32_1_0_0_1_n_n : DotDims S500000x165 S165x32 S500000x32 where
  lhsContracting := [1]
  rhsContracting := [0]
  lhsNonContracting := [0]
  rhsNonContracting := [1]
  lhsBatch := []
  rhsBatch := []
  wf := dot_S500000x165_S165x32_S500000x32_1_0_0_1_n_n_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf
def dot_S500000x32_S32x2_S500000x2_1_0_0_1_n_n : DotDims S500000x32 S32x2 S500000x2 where
  lhsContracting := [1]
  rhsContracting := [0]
  lhsNonContracting := [0]
  rhsNonContracting := [1]
  lhsBatch := []
  rhsBatch := []
  wf := dot_S500000x32_S32x2_S500000x2_1_0_0_1_n_n_wf

class Facts : Prop extends Facts₀ where

variable [Facts]
-- ==== Proof.Cell.lean ====
/-
  The function both programs compute, written once, entry by entry, on the extended reals.

  Every one of `R` nodes carries a feature row `x_P` (165 entries), a hidden row `h_P` and a cell row `c_P` (32 entries
  each). Each of four gates has an input weight matrix `W` (165 × 32), a recurrent weight matrix `U` (32 × 32) and a
  bias `β` per unit; its pre-activation at node `P`, unit `q` is

      x_P · W[:, q] + h_P · U[:, q] + β_q.

  With `σ` the logistic function, the new cell state is `σ(f) · c + σ(i) · tanh(g)`, the new hidden state
  `σ(o) · tanh(c')`, and the read-out `max(h', 0) · W_lin + β_lin`. Nothing couples two nodes: every entry of the three
  results at node `P` depends on row `P` of `x`, `h`, `c` only, which is what lets a program work on the nodes a block of
  rows at a time (`*_rows` below).

  Each gate's bias arrives as two summands, an input bias `b` and a recurrent bias `d`, and `β = b + d`. One program
  adds `b + d` to the linear part, the other adds `d` and then `b`; on the extended reals addition is commutative and
  associative without exception, so the two agree everywhere (`add_two_biases`). The logistic function written out as
  `1 / (1 + e^(-z))` with the literal `1.0` is the logistic function (`logistic_eq_host`).
-/
import Idealize.ShloMosaic.Lib.ValueIdx
import Idealize.ShloMosaic.PureOps.Ideal
import Idealize.ShloMosaic.PureOps.IdealRules

noncomputable section

open scoped BigOperators

namespace Cert.Cell

open Idealize.ShloMosaic Idealize.ShloMosaic.ValueIdx

/-- A matrix of extended reals, indexed as the programs index a rank-2 array. -/
abbrev Mat (a b : ℕ) : Type := (⟨2, ![a, b]⟩ : Shape).Idx → EReal
/-- A vector of extended reals, indexed as the programs index a rank-1 array. -/
abbrev Vct (a : ℕ) : Type := (⟨1, ![a]⟩ : Shape).Idx → EReal

/-- One gate's parameters: input weights, recurrent weights, and the bias of each unit. -/
structure Gate where
  W : Mat 165 32
  U : Mat 32 32
  β : Fin 32 → EReal

/-- A gate whose bias is the sum of an input bias row and a recurrent bias vector. -/
def Gate.ofBiases (W : Mat 165 32) (U : Mat 32 32) (b : Mat 1 32) (d : Vct 32) : Gate :=
  ⟨W, U, fun q => b (ix2 (0 : Fin 1) q) + d (ix1 q)⟩

variable {R R' : ℕ}

/-- The linear part of a gate at node `P`, unit `q`: `x_P · W[:, q] + h_P · U[:, q]`. -/
def Gate.lin (g : Gate) (x : Mat R 165) (h : Mat R 32) (P : Fin R) (q : Fin 32) : EReal :=
  (∑ k : Fin 165, x (ix2 P k) * g.W (ix2 k q)) + (∑ k : Fin 32, h (ix2 P k) * g.U (ix2 k q))

/-- A gate's pre-activation: the linear part plus the bias. -/
def Gate.pre (g : Gate) (x : Mat R 165) (h : Mat R 32) (P : Fin R) (q : Fin 32) : EReal :=
  g.lin x h P q + g.β q

/-- Adding the recurrent bias and then the input bias is adding their sum. -/
theorem add_two_biases (s b d : EReal) : (s + d) + b = s + (b + d) := by
  rw [add_assoc, add_comm d b]

/-- The literal `1.0` denotes the real number one. -/
theorem one_f32 : Ideal.ofBits .f32 0x3F800000#32 = 1 := IdealRules.sign_bit.ideal_onePat .f32

/-- `1.0 / (1.0 + e^(-z))` is the logistic function of `z`, at every extended real. -/
theorem logistic_eq_host (z : EReal) :
    Ideal.div (Ideal.ofBits .f32 0x3F800000#32) (Ideal.ofBits .f32 0x3F800000#32 + Ideal.exp (-z)) = Ideal.logistic z := by
  rw [one_f32]
  rfl

/-- All parameters: the input, forget, candidate and output gates, and the read-out's weights and bias. -/
structure Params where
  gi : Gate
  gf : Gate
  gc : Gate
  go : Gate
  Wl : Mat 32 2
  βl : Fin 2 → EReal

/-- The new cell state at node `P`, unit `q`: `σ(f) · c + σ(i) · tanh(g)`. -/
def cNew (θ : Params) (x : Mat R 165) (h c : Mat R 32) (P : Fin R) (q : Fin 32) : EReal :=
  Ideal.logistic (θ.gf.pre x h P q) * c (ix2 P q) + Ideal.logistic (θ.gi.pre x h P q) * Ideal.tanh (θ.gc.pre x h P q)

/-- The new hidden state at node `P`, unit `q`: `σ(o) · tanh(c')`. -/
def hNew (θ : Params) (x : Mat R 165) (h c : Mat R 32) (P : Fin R) (q : Fin 32) : EReal :=
  Ideal.logistic (θ.go.pre x h P q) * Ideal.tanh (cNew θ x h c P q)

/-- The read-out at node `P`, class `r`: the rectified new hidden row times the read-out weights, plus the bias. -/
def yOut (θ : Params) (x : Mat R 165) (h c : Mat R 32) (P : Fin R) (r : Fin 2) : EReal :=
  (∑ k : Fin 32, max (hNew θ x h c P k) (Ideal.ofBits .f32 0x00000000#32) * θ.Wl (ix2 k r)) + θ.βl r

/-- The three results as whole arrays. -/
def cArr (θ : Params) (x : Mat R 165) (h c : Mat R 32) : Mat R 32 := fun j => cNew θ x h c (j 0) (j 1)
def hArr (θ : Params) (x : Mat R 165) (h c : Mat R 32) : Mat R 32 := fun j => hNew θ x h c (j 0) (j 1)
def yArr (θ : Params) (x : Mat R 165) (h c : Mat R 32) : Mat R 2 := fun j => yOut θ x h c (j 0) (j 1)

theorem cArr_apply (θ : Params) (x : Mat R 165) (h c : Mat R 32) (P : Fin R) (q : Fin 32) :
    cArr θ x h c (ix2 P q) = cNew θ x h c P q := rfl
theorem hArr_apply (θ : Params) (x : Mat R 165) (h c : Mat R 32) (P : Fin R) (q : Fin 32) :
    hArr θ x h c (ix2 P q) = hNew θ x h c P q := rfl
theorem yArr_apply (θ : Params) (x : Mat R 165) (h c : Mat R 32) (P : Fin R) (r : Fin 2) :
    yArr θ x h c (ix2 P r) = yOut θ x h c P r := rfl

/-! ## Every result at a node depends on that node's rows only -/

section rows

variable (θ : Params) (x : Mat R 165) (h c : Mat R 32) (x' : Mat R' 165) (h' c' : Mat R' 32) (P : Fin R) (P' : Fin R')
  (hx : ∀ k, x (ix2 P k) = x' (ix2 P' k)) (hh : ∀ k, h (ix2 P k) = h' (ix2 P' k)) (hc : ∀ k, c (ix2 P k) = c' (ix2 P' k))

include hx hh in
theorem Gate.pre_rows (g : Gate) (q : Fin 32) : g.pre x h P q = g.pre x' h' P' q := by
  simp only [Gate.pre, Gate.lin, hx, hh]

include hx hh hc in
theorem cNew_rows (q : Fin 32) : cNew θ x h c P q = cNew θ x' h' c' P' q := by
  simp only [cNew, Gate.pre_rows x h x' h' P P' hx hh, hc]

include hx hh hc in
theorem hNew_rows (q : Fin 32) : hNew θ x h c P q = hNew θ x' h' c' P' q := by
  simp only [hNew, Gate.pre_rows x h x' h' P P' hx hh, cNew_rows θ x h c x' h' c' P P' hx hh hc]

include hx hh hc in
theorem yOut_rows (r : Fin 2) : yOut θ x h c P r = yOut θ x' h' c' P' r := by
  simp only [yOut, hNew_rows θ x h c x' h' c' P P' hx hh hc]

end rows

end Cert.Cell

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.KernelCell.lean ====
/-
  What the kernel's body computes on one block of rows, entry by entry: the cell's three results on that block.

  The body loads a block of 5000 rows of `x`, `h` and `c`, the whole weight matrices, and for each gate ONE bias row
  (the host has added the two bias summands before the launch). A matrix product into the zero accumulator, read at
  `(p, q)`, is the sum over the contracted index; a bias row cast to its own shape and spread over the block's rows,
  read at `(p, q)`, is the row at `q`; everything else is entry by entry. So each stored value, at `(p, q)`, is the
  cell's function of row `p` of the loaded blocks.
-/
import proofs.«148267_j74887049773819_1_alg».proof.Proof.Gen.KernelIdeal.Skeleton
import proofs.«148267_j74887049773819_1_alg».proof.Proof.Cell
import proofs.«148267_j74887049773819_1_alg».proof.Proof.LibPlainDot
import Idealize.ShloMosaic.Lib.Pipeline.Value
import Idealize.ShloMosaic.Lib.ValueLayout

noncomputable section

open scoped BigOperators

namespace Cert.KernelIdeal.CellValue

open Cert.KernelIdeal Cert.KernelIdeal.Gen Idealize.ShloMosaic Idealize.ShloMosaic.TcCoe Idealize.ShloMosaic.ValueIdx Cert.Cell

/-- A loaded block or array of extended reals of a given shape. -/
abbrev A (s : Shape) : Type := FVec Ideal s .f32

/-- The bias of each unit, from a one-row bias array. -/
abbrev rowBias {n : ℕ} (b : A ⟨2, ![1, n]⟩) : Fin n → EReal := fun q => b (ix2 (0 : Fin 1) q)

/-- The cell's parameters as the body finds them: four weight pairs with ONE bias row each, and the read-out's. -/
def blockParams (Wi Wf Wc Wo : A S165x32) (Ui Uf Uc Uo : A S32x32) (bi bf bc bo : A S1x32) (Wl : A S32x2) (bl : A S1x2) : Params :=
  ⟨⟨Wi, Ui, rowBias bi⟩, ⟨Wf, Uf, rowBias bf⟩, ⟨Wc, Uc, rowBias bc⟩, ⟨Wo, Uo, rowBias bo⟩, Wl, rowBias bl⟩

theorem plain_x : PlainDot.IsPlain dot_S5000x165_S165x32_S5000x32_1_0_0_1_n_n := ⟨rfl, rfl, rfl, rfl, rfl, rfl⟩
theorem plain_h : PlainDot.IsPlain dot_S5000x32_S32x32_S5000x32_1_0_0_1_n_n := ⟨rfl, rfl, rfl, rfl, rfl, rfl⟩
theorem plain_l : PlainDot.IsPlain dot_S5000x32_S32x2_S5000x2_1_0_0_1_n_n := ⟨rfl, rfl, rfl, rfl, rfl, rfl⟩

theorem tanh_apply {s : Shape} (a : A s) (i : s.Idx) : tanh a i = Ideal.tanh (a i) := rfl
theorem logistic_apply {s : Shape} (a : A s) (i : s.Idx) : logistic a i = Ideal.logistic (a i) := rfl

/-- A bias row cast to its own shape and spread over the block's rows reads, at `(p, q)`, the row at `q`. -/
theorem bias32_apply (b : A S1x32) (p : Fin 5000) (q : Fin 32) :
    broadcastTo S5000x32 (shapeCast S1x32 b shapeCasts_S1x32_S1x32) broadcasts_S1x32_S5000x32 (ix2 p q) = b (ix2 (0 : Fin 1) q) := by
  rw [shapeCast_self]
  exact broadcastTo_1b_ab_apply b broadcasts_S1x32_S5000x32 p q

theorem bias2_apply (b : A S1x2) (p : Fin 5000) (r : Fin 2) :
    broadcastTo S5000x2 (shapeCast S1x2 b shapeCasts_S1x2_S1x2) broadcasts_S1x2_S5000x2 (ix2 p r) = b (ix2 (0 : Fin 1) r) := by
  rw [shapeCast_self]
  exact broadcastTo_1b_ab_apply b broadcasts_S1x2_S5000x2 p r

/-- The two products added, at `(p, q)`: a gate's linear part (whatever its bias). -/
theorem lin_apply (x : A S5000x165) (h : A S5000x32) (W : A S165x32) (U : A S32x32) (β : Fin 32 → EReal) (p : Fin 5000) (q : Fin 32) :
    addf (matmul dot_S5000x165_S165x32_S5000x32_1_0_0_1_n_n none x W (constant S5000x32 .f32 0x00000000#32))
        (matmul dot_S5000x32_S32x32_S5000x32_1_0_0_1_n_n none h U (constant S5000x32 .f32 0x00000000#32)) (ix2 p q)
      = (Gate.mk W U β).lin x h p q := by
  rw [addf_apply]
  exact congrArg₂ (· + ·) (PlainDot.matmul_zero_apply plain_x none x W p q) (PlainDot.matmul_zero_apply plain_h none h U p q)

/-- The products added and the bias row spread over them, at `(p, q)`: the gate's pre-activation. -/
theorem pre_apply (x : A S5000x165) (h : A S5000x32) (W : A S165x32) (U : A S32x32) (b : A S1x32) (p : Fin 5000) (q : Fin 32) :
    addf (addf (matmul dot_S5000x165_S165x32_S5000x32_1_0_0_1_n_n none x W (constant S5000x32 .f32 0x00000000#32))
          (matmul dot_S5000x32_S32x32_S5000x32_1_0_0_1_n_n none h U (constant S5000x32 .f32 0x00000000#32)))
        (broadcastTo S5000x32 (shapeCast S1x32 b shapeCasts_S1x32_S1x32) broadcasts_S1x32_S5000x32) (ix2 p q)
      = (Gate.mk W U (rowBias b)).pre x h p q := by
  rw [addf_apply, lin_apply x h W U (rowBias b) p q, bias32_apply]
  rfl

/-- The input gate's stored value. -/
theorem pay4_apply (x : A S5000x165) (h : A S5000x32) (W : A S165x32) (U : A S32x32) (b : A S1x32) (p : Fin 5000) (q : Fin 32) :
    k0_pay4 (F := Ideal) x h W U b (ix2 p q) = Ideal.logistic ((Gate.mk W U (rowBias b)).pre x h p q) :=
  congrArg Ideal.logistic (pre_apply x h W U b p q)

/-- The forget gate's. -/
theorem pay5_apply (x : A S5000x165) (h : A S5000x32) (W : A S165x32) (U : A S32x32) (b : A S1x32) (p : Fin 5000) (q : Fin 32) :
    k0_pay5 (F := Ideal) x h W U b (ix2 p q) = Ideal.logistic ((Gate.mk W U (rowBias b)).pre x h p q) :=
  congrArg Ideal.logistic (pre_apply x h W U b p q)

/-- The candidate's linear part. -/
theorem pay6_apply (x : A S5000x165) (h : A S5000x32) (W : A S165x32) (U : A S32x32) (β : Fin 32 → EReal) (p : Fin 5000) (q : Fin 32) :
    k0_pay6 (F := Ideal) x h W U (ix2 p q) = (Gate.mk W U β).lin x h p q :=
  lin_apply x h W U β p q

section block

variable (x : A S5000x165) (h c : A S5000x32) (Wi Wf Wc Wo : A S165x32) (Ui Uf Uc Uo : A S32x32) (bi bf bc bo : A S1x32)
  (Wl : A S32x2) (bl : A S1x2) (p : Fin 5000)

/-- The new cell state the body stores, at `(p, q)`. -/
theorem cell_apply (q : Fin 32) :
    k0_pay1 (F := Ideal) c (k0_pay4 x h Wi Ui bi) (k0_pay5 x h Wf Uf bf) (k0_pay6 x h Wc Uc) bc (ix2 p q)
      = cNew (blockParams Wi Wf Wc Wo Ui Uf Uc Uo bi bf bc bo Wl bl) x h c p q := by
  have e : k0_pay1 (F := Ideal) c (k0_pay4 x h Wi Ui bi) (k0_pay5 x h Wf Uf bf) (k0_pay6 x h Wc Uc) bc
      = addf (mulf (k0_pay5 x h Wf Uf bf) c) (mulf (k0_pay4 x h Wi Ui bi)
          (tanh (addf (k0_pay6 x h Wc Uc) (broadcastTo S5000x32 (shapeCast S1x32 bc shapeCasts_S1x32_S1x32) broadcasts_S1x32_S5000x32)))) := rfl
  rw [e, addf_apply, mulf_apply, mulf_apply, tanh_apply, addf_apply, pay5_apply, pay4_apply,
    pay6_apply x h Wc Uc (rowBias bc), bias32_apply]
  rfl

/-- The new hidden state the body stores, at `(p, q)`. -/
theorem hidden_apply (q : Fin 32) :
    k0_pay2 (F := Ideal) x h c (k0_pay4 x h Wi Ui bi) (k0_pay5 x h Wf Uf bf) (k0_pay6 x h Wc Uc) bc Wo Uo bo (ix2 p q)
      = hNew (blockParams Wi Wf Wc Wo Ui Uf Uc Uo bi bf bc bo Wl bl) x h c p q := by
  have e : k0_pay2 (F := Ideal) x h c (k0_pay4 x h Wi Ui bi) (k0_pay5 x h Wf Uf bf) (k0_pay6 x h Wc Uc) bc Wo Uo bo
      = mulf (logistic (addf (addf (matmul dot_S5000x165_S165x32_S5000x32_1_0_0_1_n_n none x Wo (constant S5000x32 .f32 0x00000000#32))
            (matmul dot_S5000x32_S32x32_S5000x32_1_0_0_1_n_n none h Uo (constant S5000x32 .f32 0x00000000#32)))
          (broadcastTo S5000x32 (shapeCast S1x32 bo shapeCasts_S1x32_S1x32) broadcasts_S1x32_S5000x32)))
        (tanh (k0_pay1 c (k0_pay4 x h Wi Ui bi) (k0_pay5 x h Wf Uf bf) (k0_pay6 x h Wc Uc) bc)) := rfl
  rw [e, mulf_apply, logistic_apply, tanh_apply, pre_apply, cell_apply x h c Wi Wf Wc Wo Ui Uf Uc Uo bi bf bc bo Wl bl p q]
  rfl

/-- The read-out the body stores, at `(p, r)`. -/
theorem readout_apply (r : Fin 2) :
    k0_pay3 (F := Ideal) x h c (k0_pay4 x h Wi Ui bi) (k0_pay5 x h Wf Uf bf) (k0_pay6 x h Wc Uc) bc Wo Uo bo Wl bl (ix2 p r)
      = yOut (blockParams Wi Wf Wc Wo Ui Uf Uc Uo bi bf bc bo Wl bl) x h c p r := by
  have e : k0_pay3 (F := Ideal) x h c (k0_pay4 x h Wi Ui bi) (k0_pay5 x h Wf Uf bf) (k0_pay6 x h Wc Uc) bc Wo Uo bo Wl bl
      = addf (matmul dot_S5000x32_S32x2_S5000x2_1_0_0_1_n_n none
            (maximumf (k0_pay2 x h c (k0_pay4 x h Wi Ui bi) (k0_pay5 x h Wf Uf bf) (k0_pay6 x h Wc Uc) bc Wo Uo bo)
              (broadcast S5000x32 (Scalar.ofBits (F := Ideal) .f32 0x00000000#32))) Wl (constant S5000x2 .f32 0x00000000#32))
          (broadcastTo S5000x2 (shapeCast S1x2 bl shapeCasts_S1x2_S1x2) broadcasts_S1x2_S5000x2) := rfl
  rw [e, addf_apply]
  refine (congrArg₂ (· + ·) (PlainDot.matmul_zero_apply plain_l none _ Wl p r) (bias2_apply bl p r)).trans ?_
  unfold yOut
  refine congrArg (· + bl (ix2 (0 : Fin 1) r)) (Finset.sum_congr rfl fun k _ => ?_)
  show max (k0_pay2 (F := Ideal) x h c (k0_pay4 x h Wi Ui bi) (k0_pay5 x h Wf Uf bf) (k0_pay6 x h Wc Uc) bc Wo Uo bo (ix2 p k))
      (Ideal.ofBits .f32 0x00000000#32) * Wl (ix2 k r) = _
  rw [hidden_apply x h c Wi Wf Wc Wo Ui Uf Uc Uo bi bf bc bo Wl bl p k]
  rfl

end block

end Cert.KernelIdeal.CellValue

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.KernelArr.lean ====
/-
  From blocks to arrays: after the kernel's run, each of its three result arrays is the cell's array.

  The launch walks 100 grid points; point `t` stages rows `5000 t … 5000 t + 4999` of `x`, `h`, `c`, stages every weight
  array whole (block index zero, block = array), runs the body, and writes the three result blocks back to the same
  rows. So what point `t` writes at block entry `(p, q)` is the cell's value at node `5000 t + p` (the body's block
  value, `KernelCell`, moved from the block's rows to the array's rows: each result at a node depends on that node's
  rows only), the bias row of each gate being the sum of the two bias arguments the host added before the launch. The
  100 blocks cover all 500000 rows (row `P` lies in block `P / 5000`), so the array ends holding the cell's array.
-/
import proofs.«148267_j74887049773819_1_alg».proof.Proof.Gen.KernelIdeal.Value
import proofs.«148267_j74887049773819_1_alg».proof.Proof.KernelCell
import proofs.«148267_j74887049773819_1_alg».proof.Proof.LibBroadcastInDim
import Idealize.ShloMosaic.Lib.StableHlo.Run

set_option maxRecDepth 16384

noncomputable section

open scoped BigOperators

namespace Cert.KernelIdeal.CellValue

open Cert.KernelIdeal Cert.KernelIdeal.Gen Idealize.ShloMosaic Idealize.ShloMosaic.TcCoe Idealize.SL.Sem
open Idealize.ShloMosaic.ValueIdx Idealize.ShloMosaic.ValueLayout Cert.Cell
open Idealize.ShloMosaic.Pipeline (Dat)

variable (m : (ℓ : Loc nD τ sig) → Buf (Elt Ideal) ℓ)

/-- The cell's parameters, read off the arguments as launched: each gate's bias is the sum of its two bias arguments. -/
def θ (c : Dev nD) : Params :=
  ⟨Gate.ofBiases (m ((c : Thread nD τ).loc main_arg5)) (m ((c : Thread nD τ).loc main_arg13)) (m ((c : Thread nD τ).loc main_arg9)) (m ((c : Thread nD τ).loc main_arg17)),
   Gate.ofBiases (m ((c : Thread nD τ).loc main_arg6)) (m ((c : Thread nD τ).loc main_arg14)) (m ((c : Thread nD τ).loc main_arg10)) (m ((c : Thread nD τ).loc main_arg18)),
   Gate.ofBiases (m ((c : Thread nD τ).loc main_arg7)) (m ((c : Thread nD τ).loc main_arg15)) (m ((c : Thread nD τ).loc main_arg11)) (m ((c : Thread nD τ).loc main_arg19)),
   Gate.ofBiases (m ((c : Thread nD τ).loc main_arg8)) (m ((c : Thread nD τ).loc main_arg16)) (m ((c : Thread nD τ).loc main_arg12)) (m ((c : Thread nD τ).loc main_arg20)),
   m ((c : Thread nD τ).loc main_arg21), fun r => (m ((c : Thread nD τ).loc main_arg22) : A S2) (ix1 r)⟩

/-- The node features, hidden rows and cell rows as launched. -/
abbrev X (c : Dev nD) : A S500000x165 := m ((c : Thread nD τ).loc main_arg0)
abbrev H (c : Dev nD) : A S500000x32 := m ((c : Thread nD τ).loc main_arg3)
abbrev C (c : Dev nD) : A S500000x32 := m ((c : Thread nD τ).loc main_arg4)

theorem hz : (![0, 0] : Fin 2 → Nat) = fun _ => 0 := funext fun a => by fin_cases a <;> rfl

/-! ## The index maps, decided once over the grid -/

/-- The row windows (`x`, `h`, `c` and the three results) sit at block `(t, 0)` at point `t`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0) :=
  (by decide +kernel : ∀ t : Fin grid0.N, _)

/-- The parameter windows sit at block `(0, 0)` at every point. -/
theorem idx_params : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)

/-- The node that row `p` of point `t`'s blocks holds. -/
def node (t : Fin cfg0.N) (p : Fin 5000) : Fin 500000 :=
  ⟨t.val * 5000 + p.val, by
    have ht : t.val < 100 := lt_of_lt_of_eq t.isLt N_0
    have hp := p.isLt
    omega⟩

variable (c : Dev nD) (t : Fin cfg0.N)

/-! ## The parameter windows' blocks are the whole arrays -/

theorem blk3 : (iblk m c 3 t : A S165x32) = V m c main_arg5 := by
  have e := (idx_params t).1
  funext y
  show V m c main_arg5 (((cfg0.win 3).blk t).view.emb y) = V m c main_arg5 y
  refine congrArg _ (funext fun a => Fin.ext ?_)
  match a with
  | ⟨0, _⟩ => show win0_3.index t (0 : Fin 2) * 165 + 1 * (y 0).val = (y 0).val; rw [e.1]; omega
  | ⟨1, _⟩ => show win0_3.index t (1 : Fin 2) * 32 + 1 * (y 1).val = (y 1).val; rw [e.2]; omega

theorem blk4 : (iblk m c 4 t : A S165x32) = V m c main_arg6 := by
  have e := (idx_params t).2.1
  funext y
  show V m c main_arg6 (((cfg0.win 4).blk t).view.emb y) = V m c main_arg6 y
  refine congrArg _ (funext fun a => Fin.ext ?_)
  match a with
  | ⟨0, _⟩ => show win0_4.index t (0 : Fin 2) * 165 + 1 * (y 0).val = (y 0).val; rw [e.1]; omega
  | ⟨1, _⟩ => show win0_4.index t (1 : Fin 2) * 32 + 1 * (y 1).val = (y 1).val; rw [e.2]; omega

theorem blk5 : (iblk m c 5 t : A S165x32) = V m c main_arg7 := by
  have e := (idx_params t).2.2.1
  funext y
  show V m c main_arg7 (((cfg0.win 5).blk t).view.emb y) = V m c main_arg7 y
  refine congrArg _ (funext fun a => Fin.ext ?_)
  match a with
  | ⟨0, _⟩ => show win0_5.index t (0 : Fin 2) * 165 + 1 * (y 0).val = (y 0).val; rw [e.1]; omega
  | ⟨1, _⟩ => show win0_5.index t (1 : Fin 2) * 32 + 1 * (y 1).val = (y 1).val; rw [e.2]; omega

theorem blk6 : (iblk m c 6 t : A S165x32) = V m c main_arg8 := by
  have e := (idx_params t).2.2.2.1
  funext y
  show V m c main_arg8 (((cfg0.win 6).blk t).view.emb y) = V m c main_arg8 y
  refine congrArg _ (funext fun a => Fin.ext ?_)
  match a with
  | ⟨0, _⟩ => show win0_6.index t (0 : Fin 2) * 165 + 1 * (y 0).val = (y 0).val; rw [e.1]; omega
  | ⟨1, _⟩ => show win0_6.index t (1 : Fin 2) * 32 + 1 * (y 1).val = (y 1).val; rw [e.2]; omega

theorem blk7 : (iblk m c 7 t : A S32x32) = V m c main_arg13 := by
  have e := (idx_params t).2.2.2.2.1
  funext y
  show V m c main_arg13 (((cfg0.win 7).blk t).view.emb y) = V m c main_arg13 y
  refine congrArg _ (funext fun a => Fin.ext ?_)
  match a with
  | ⟨0, _⟩ => show win0_7.index t (0 : Fin 2) * 32 + 1 * (y 0).val = (y 0).val; rw [e.1]; omega
  | ⟨1, _⟩ => show win0_7.index t (1 : Fin 2) * 32 + 1 * (y 1).val = (y 1).val; rw [e.2]; omega

theorem blk8 : (iblk m c 8 t : A S32x32) = V m c main_arg14 := by
  have e := (idx_params t).2.2.2.2.2.1
  funext y
  show V m c main_arg14 (((cfg0.win 8).blk t).view.emb y) = V m c main_arg14 y
  refine congrArg _ (funext fun a => Fin.ext ?_)
  match a with
  | ⟨0, _⟩ => show win0_8.index t (0 : Fin 2) * 32 + 1 * (y 0).val = (y 0).val; rw [e.1]; omega
  | ⟨1, _⟩ => show win0_8.index t (1 : Fin 2) * 32 + 1 * (y 1).val = (y 1).val; rw [e.2]; omega

theorem blk9 : (iblk m c 9 t : A S32x32) = V m c main_arg15 := by
  have e := (idx_params t).2.2.2.2.2.2.1
  funext y
  show V m c main_arg15 (((cfg0.win 9).blk t).view.emb y) = V m c main_arg15 y
  refine congrArg _ (funext fun a => Fin.ext ?_)
  match a with
  | ⟨0, _⟩ => show win0_9.index t (0 : Fin 2) * 32 + 1 * (y 0).val = (y 0).val; rw [e.1]; omega
  | ⟨1, _⟩ => show win0_9.index t (1 : Fin 2) * 32 + 1 * (y 1).val = (y 1).val; rw [e.2]; omega

theorem blk10 : (iblk m c 10 t : A S32x32) = V m c main_arg16 := by
  have e := (idx_params t).2.2.2.2.2.2.2.1
  funext y
  show V m c main_arg16 (((cfg0.win 10).blk t).view.emb y) = V m c main_arg16 y
  refine congrArg _ (funext fun a => Fin.ext ?_)
  match a with
  | ⟨0, _⟩ => show win0_10.index t (0 : Fin 2) * 32 + 1 * (y 0).val = (y 0).val; rw [e.1]; omega
  | ⟨1, _⟩ => show win0_10.index t (1 : Fin 2) * 32 + 1 * (y 1).val = (y 1).val; rw [e.2]; omega

theorem blk11 : (iblk m c 11 t : A S1x32) = V m c main_v1 := by
  have e := (idx_params t).2.2.2.2.2.2.2.2.1
  funext y
  show V m c main_v1 (((cfg0.win 11).blk t).view.emb y) = V m c main_v1 y
  refine congrArg _ (funext fun a => Fin.ext ?_)
  match a with
  | ⟨0, _⟩ => show win0_11.index t (0 : Fin 2) * 1 + 1 * (y 0).val = (y 0).val; rw [e.1]; omega
  | ⟨1, _⟩ => show win0_11.index t (1 : Fin 2) * 32 + 1 * (y 1).val = (y 1).val; rw [e.2]; omega

theorem blk12 : (iblk m c 12 t : A S1x32) = V m c main_v3 := by
  have e := (idx_params t).2.2.2.2.2.2.2.2.2.1
  funext y
  show V m c main_v3 (((cfg0.win 12).blk t).view.emb y) = V m c main_v3 y
  refine congrArg _ (funext fun a => Fin.ext ?_)
  match a with
  | ⟨0, _⟩ => show win0_12.index t (0 : Fin 2) * 1 + 1 * (y 0).val = (y 0).val; rw [e.1]; omega
  | ⟨1, _⟩ => show win0_12.index t (1 : Fin 2) * 32 + 1 * (y 1).val = (y 1).val; rw [e.2]; omega

theorem blk13 : (iblk m c 13 t : A S1x32) = V m c main_v5 := by
  have e := (idx_params t).2.2.2.2.2.2.2.2.2.2.1
  funext y
  show V m c main_v5 (((cfg0.win 13).blk t).view.emb y) = V m c main_v5 y
  refine congrArg _ (funext fun a => Fin.ext ?_)
  match a with
  | ⟨0, _⟩ => show win0_13.index t (0 : Fin 2) * 1 + 1 * (y 0).val = (y 0).val; rw [e.1]; omega
  | ⟨1, _⟩ => show win0_13.index t (1 : Fin 2) * 32 + 1 * (y 1).val = (y 1).val; rw [e.2]; omega

theorem blk14 : (iblk m c 14 t : A S1x32) = V m c main_v7 := by
  have e := (idx_params t).2.2.2.2.2.2.2.2.2.2.2.1
  funext y
  show V m c main_v7 (((cfg0.win 14).blk t).view.emb y) = V m c main_v7 y
  refine congrArg _ (funext fun a => Fin.ext ?_)
  match a with
  | ⟨0, _⟩ => show win0_14.index t (0 : Fin 2) * 1 + 1 * (y 0).val = (y 0).val; rw [e.1]; omega
  | ⟨1, _⟩ => show win0_14.index t (1 : Fin 2) * 32 + 1 * (y 1).val = (y 1).val; rw [e.2]; omega

theorem blk15 : (iblk m c 15 t : A S32x2) = V m c main_arg21 := by
  have e := (idx_params t).2.2.2.2.2.2.2.2.2.2.2.2.1
  funext y
  show V m c main_arg21 (((cfg0.win 15).blk t).view.emb y) = V m c main_arg21 y
  refine congrArg _ (funext fun a => Fin.ext ?_)
  match a with
  | ⟨0, _⟩ => show win0_15.index t (0 : Fin 2) * 32 + 1 * (y 0).val = (y 0).val; rw [e.1]; omega
  | ⟨1, _⟩ => show win0_15.index t (1 : Fin 2) * 2 + 1 * (y 1).val = (y 1).val; rw [e.2]; omega

theorem blk16 : (iblk m c 16 t : A S1x2) = V m c main_v8 := by
  have e := (idx_params t).2.2.2.2.2.2.2.2.2.2.2.2.2
  funext y
  show V m c main_v8 (((cfg0.win 16).blk t).view.emb y) = V m c main_v8 y
  refine congrArg _ (funext fun a => Fin.ext ?_)
  match a with
  | ⟨0, _⟩ => show win0_16.index t (0 : Fin 2) * 1 + 1 * (y 0).val = (y 0).val; rw [e.1]; omega
  | ⟨1, _⟩ => show win0_16.index t (1 : Fin 2) * 2 + 1 * (y 1).val = (y 1).val; rw [e.2]; omega

/-! ## What the host put in the bias arrays before the launch -/

theorem bias_i : rowBias (V m c main_v1 : A S1x32) = (θ m c).gi.β := by
  have e : @Eq (A S1x32) (V m c main_v1) (addf (F := Ideal) (φ := .f32) (m ((c : Thread nD τ).loc main_arg9))
      (broadcastInDim S1x32 ![1] bcast_S32_S1x32_1 (m ((c : Thread nD τ).loc main_arg17)))) := by
    dsimp only [Gen.V, Gen.hostOps0]; after_results; try rfl
  funext q
  show (V m c main_v1 : A S1x32) (ix2 (0 : Fin 1) q) = _
  rw [e, addf_apply, bcast_n_1n_apply]
  rfl

theorem bias_f : rowBias (V m c main_v3 : A S1x32) = (θ m c).gf.β := by
  have e : @Eq (A S1x32) (V m c main_v3) (addf (F := Ideal) (φ := .f32) (m ((c : Thread nD τ).loc main_arg10))
      (broadcastInDim S1x32 ![1] bcast_S32_S1x32_1 (m ((c : Thread nD τ).loc main_arg18)))) := by
    dsimp only [Gen.V, Gen.hostOps0]; after_results; try rfl
  funext q
  show (V m c main_v3 : A S1x32) (ix2 (0 : Fin 1) q) = _
  rw [e, addf_apply, bcast_n_1n_apply]
  rfl

theorem bias_c : rowBias (V m c main_v5 : A S1x32) = (θ m c).gc.β := by
  have e : @Eq (A S1x32) (V m c main_v5) (addf (F := Ideal) (φ := .f32) (m ((c : Thread nD τ).loc main_arg11))
      (broadcastInDim S1x32 ![1] bcast_S32_S1x32_1 (m ((c : Thread nD τ).loc main_arg19)))) := by
    dsimp only [Gen.V, Gen.hostOps0]; after_results; try rfl
  funext q
  show (V m c main_v5 : A S1x32) (ix2 (0 : Fin 1) q) = _
  rw [e, addf_apply, bcast_n_1n_apply]
  rfl

theorem bias_o : rowBias (V m c main_v7 : A S1x32) = (θ m c).go.β := by
  have e : @Eq (A S1x32) (V m c main_v7) (addf (F := Ideal) (φ := .f32) (m ((c : Thread nD τ).loc main_arg12))
      (broadcastInDim S1x32 ![1] bcast_S32_S1x32_1 (m ((c : Thread nD τ).loc main_arg20)))) := by
    dsimp only [Gen.V, Gen.hostOps0]; after_results; try rfl
  funext q
  show (V m c main_v7 : A S1x32) (ix2 (0 : Fin 1) q) = _
  rw [e, addf_apply, bcast_n_1n_apply]
  rfl

theorem bias_l : rowBias (V m c main_v8 : A S1x2) = (θ m c).βl := by
  have e : @Eq (A S1x2) (V m c main_v8) (broadcastInDim S1x2 ![1] bcast_S2_S1x2_1 (m ((c : Thread nD τ).loc main_arg22))) := by
    dsimp only [Gen.V, Gen.hostOps0]; after_results; try rfl
  funext r
  show (V m c main_v8 : A S1x2) (ix2 (0 : Fin 1) r) = _
  rw [e, bcast_n_1n_apply]
  rfl

/-- The parameters the body finds at any point are the cell's. -/
theorem params_blk : blockParams (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) = θ m c := by
  rw [blk3 m c t, blk4 m c t, blk5 m c t, blk6 m c t, blk7 m c t, blk8 m c t, blk9 m c t, blk10 m c t, blk11 m c t, blk12 m c t,
    blk13 m c t, blk14 m c t, blk15 m c t, blk16 m c t]
  unfold blockParams
  rw [bias_i m c, bias_f m c, bias_c m c, bias_o m c, bias_l m c, V_main_arg5 m c, V_main_arg6 m c, V_main_arg7 m c, V_main_arg8 m c,
    V_main_arg13 m c, V_main_arg14 m c, V_main_arg15 m c, V_main_arg16 m c, V_main_arg21 m c]
  rfl

/-! ## The row windows' blocks are rows `5000 t …` of the arrays -/

variable (p : Fin 5000)

theorem xrow (k : Fin 165) : (iblk m c 0 t : A S5000x165) (ix2 p k) = X m c (ix2 (node t p) k) := by
  have e := (idx_rows t).1
  refine Eq.trans ?_ (congrFun (V_main_arg0 m c) _)
  show V m c main_arg0 (((cfg0.win 0).blk t).view.emb (ix2 p k)) = V m c main_arg0 (ix2 (node t p) k)
  refine congrArg _ (funext fun a => Fin.ext ?_)
  match a with
  | ⟨0, _⟩ => show win0_0.index t (0 : Fin 2) * 5000 + 1 * p.val = t.val * 5000 + p.val; rw [e.1]; omega
  | ⟨1, _⟩ => show win0_0.index t (1 : Fin 2) * 165 + 1 * k.val = k.val; rw [e.2]; omega

theorem hrow (k : Fin 32) : (iblk m c 1 t : A S5000x32) (ix2 p k) = H m c (ix2 (node t p) k) := by
  have e := (idx_rows t).2.1
  refine Eq.trans ?_ (congrFun (V_main_arg3 m c) _)
  show V m c main_arg3 (((cfg0.win 1).blk t).view.emb (ix2 p k)) = V m c main_arg3 (ix2 (node t p) k)
  refine congrArg _ (funext fun a => Fin.ext ?_)
  match a with
  | ⟨0, _⟩ => show win0_1.index t (0 : Fin 2) * 5000 + 1 * p.val = t.val * 5000 + p.val; rw [e.1]; omega
  | ⟨1, _⟩ => show win0_1.index t (1 : Fin 2) * 32 + 1 * k.val = k.val; rw [e.2]; omega

theorem crow (k : Fin 32) : (iblk m c 2 t : A S5000x32) (ix2 p k) = C m c (ix2 (node t p) k) := by
  have e := (idx_rows t).2.2.1
  refine Eq.trans ?_ (congrFun (V_main_arg4 m c) _)
  show V m c main_arg4 (((cfg0.win 2).blk t).view.emb (ix2 p k)) = V m c main_arg4 (ix2 (node t p) k)
  refine congrArg _ (funext fun a => Fin.ext ?_)
  match a with
  | ⟨0, _⟩ => show win0_2.index t (0 : Fin 2) * 5000 + 1 * p.val = t.val * 5000 + p.val; rw [e.1]; omega
  | ⟨1, _⟩ => show win0_2.index t (1 : Fin 2) * 32 + 1 * k.val = k.val; rw [e.2]; omega

/-- Entry `(p, q)` of a result block sits at node `5000 t + p`, unit `q` of its array. -/
theorem emb17 (r : Fin 2) : ((cfg0.win 17).blk t).view.emb (ix2 p r) = ix2 (node t p) r := by
  have e := (idx_rows t).2.2.2.1
  funext a; apply Fin.ext
  match a with
  | ⟨0, _⟩ => show win0_17.index t (0 : Fin 2) * 5000 + 1 * p.val = t.val * 5000 + p.val; rw [e.1]; omega
  | ⟨1, _⟩ => show win0_17.index t (1 : Fin 2) * 2 + 1 * r.val = r.val; rw [e.2]; omega

theorem emb18 (q : Fin 32) : ((cfg0.win 18).blk t).view.emb (ix2 p q) = ix2 (node t p) q := by
  have e := (idx_rows t).2.2.2.2.1
  funext a; apply Fin.ext
  match a with
  | ⟨0, _⟩ => show win0_18.index t (0 : Fin 2) * 5000 + 1 * p.val = t.val * 5000 + p.val; rw [e.1]; omega
  | ⟨1, _⟩ => show win0_18.index t (1 : Fin 2) * 32 + 1 * q.val = q.val; rw [e.2]; omega

theorem emb19 (q : Fin 32) : ((cfg0.win 19).blk t).view.emb (ix2 p q) = ix2 (node t p) q := by
  have e := (idx_rows t).2.2.2.2.2
  funext a; apply Fin.ext
  match a with
  | ⟨0, _⟩ => show win0_19.index t (0 : Fin 2) * 5000 + 1 * p.val = t.val * 5000 + p.val; rw [e.1]; omega
  | ⟨1, _⟩ => show win0_19.index t (1 : Fin 2) * 32 + 1 * q.val = q.val; rw [e.2]; omega

end Cert.KernelIdeal.CellValue

end
-- ==== Proof.KernelRun.lean ====
/-
  The kernel's three result arrays after the run are the cell's three arrays.

  Each result window's staging buffer is written by ONE store through the whole block, so what the body leaves in it
  is that store's value; at point `t`, entry `(p, q)`, it is the cell's value at node `5000 t + p` (the body's block
  value with the blocks read as rows of the arrays and the staged parameters as the cell's parameters). Point `t`'s
  block is rows `5000 t … 5000 t + 4999`, all columns; row `P` lies in the block of point `P / 5000`, so the blocks
  cover the array.
-/
import proofs.«148267_j74887049773819_1_alg».proof.Proof.KernelArr

set_option maxRecDepth 16384

noncomputable section

open scoped BigOperators

namespace Cert.KernelIdeal.CellValue

open Cert.KernelIdeal Cert.KernelIdeal.Gen Idealize.ShloMosaic Idealize.ShloMosaic.TcCoe Idealize.SL.Sem
open Idealize.ShloMosaic.ValueIdx Idealize.ShloMosaic.ValueLayout Cert.Cell
open Idealize.ShloMosaic.Pipeline (Dat)

/-! ## What the body leaves in each result buffer, over any loaded blocks -/

section buffers

variable (x0 : A S5000x165) (x1 x2 : A S5000x32) (x3 x4 x5 x6 : A S165x32) (x7 x8 x9 x10 : A S32x32) (x11 x12 x13 x14 : A S1x32)
  (x15 : A S32x2) (x16 : A S1x2)

theorem out17_eq : out0_17 (F := Ideal) x0 x1 x2 x3 x4 x5 x6 x7 x8 x9 x10 x11 x12 x13 x14 x15 x16
    = k0_pay3 (F := Ideal) x0 x1 x2 (k0_pay4 x0 x1 x3 x7 x11) (k0_pay5 x0 x1 x4 x8 x12) (k0_pay6 x0 x1 x5 x9) x13 x6 x10 x14 x15 x16 := by
  unfold out0_17
  rw [View.canon_unit_zero hz]
  simp only [View.ld_unit_zero (S := S5000x165) hz, View.ld_unit_zero (S := S5000x32) hz, View.ld_unit_zero (S := S165x32) hz,
    View.ld_unit_zero (S := S32x32) hz, View.ld_unit_zero (S := S1x32) hz, View.ld_unit_zero (S := S32x2) hz,
    View.ld_unit_zero (S := S1x2) hz]

theorem out18_eq : out0_18 (F := Ideal) x0 x1 x2 x3 x4 x5 x6 x7 x8 x9 x10 x11 x12 x13 x14 x15 x16
    = k0_pay2 (F := Ideal) x0 x1 x2 (k0_pay4 x0 x1 x3 x7 x11) (k0_pay5 x0 x1 x4 x8 x12) (k0_pay6 x0 x1 x5 x9) x13 x6 x10 x14 := by
  unfold out0_18
  rw [View.canon_unit_zero hz]
  simp only [View.ld_unit_zero (S := S5000x165) hz, View.ld_unit_zero (S := S5000x32) hz, View.ld_unit_zero (S := S165x32) hz,
    View.ld_unit_zero (S := S32x32) hz, View.ld_unit_zero (S := S1x32) hz]

theorem out19_eq : out0_19 (F := Ideal) x0 x1 x2 x3 x4 x5 x6 x7 x8 x9 x10 x11 x12 x13 x14 x15 x16
    = k0_pay1 (F := Ideal) x2 (k0_pay4 x0 x1 x3 x7 x11) (k0_pay5 x0 x1 x4 x8 x12) (k0_pay6 x0 x1 x5 x9) x13 := by
  unfold out0_19
  rw [View.canon_unit_zero hz]
  simp only [View.ld_unit_zero (S := S5000x165) hz, View.ld_unit_zero (S := S5000x32) hz, View.ld_unit_zero (S := S165x32) hz,
    View.ld_unit_zero (S := S32x32) hz, View.ld_unit_zero (S := S1x32) hz]

end buffers

variable (m : (ℓ : Loc nD τ sig) → Buf (Elt Ideal) ℓ) (c : Dev nD) (t : Fin cfg0.N)

/-! ## What point `t` leaves at entry `(p, q)`: the cell's value at node `5000 t + p` -/

theorem point19 (p : Fin 5000) (q : Fin 32) :
    out0_19 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) (ix2 p q)
      = cNew (θ m c) (X m c) (H m c) (C m c) (node t p) q := by
  refine (congrFun (out19_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t)) (ix2 p q)).trans ?_
  refine (cell_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) p q).trans ?_
  rw [params_blk m c t]
  exact cNew_rows (θ m c) _ _ _ (X m c) (H m c) (C m c) p (node t p) (xrow m c t p) (hrow m c t p) (crow m c t p) q

theorem point18 (p : Fin 5000) (q : Fin 32) :
    out0_18 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) (ix2 p q)
      = hNew (θ m c) (X m c) (H m c) (C m c) (node t p) q := by
  refine (congrFun (out18_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t)) (ix2 p q)).trans ?_
  refine (hidden_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) p q).trans ?_
  rw [params_blk m c t]
  exact hNew_rows (θ m c) _ _ _ (X m c) (H m c) (C m c) p (node t p) (xrow m c t p) (hrow m c t p) (crow m c t p) q

theorem point17 (p : Fin 5000) (r : Fin 2) :
    out0_17 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) (ix2 p r)
      = yOut (θ m c) (X m c) (H m c) (C m c) (node t p) r := by
  refine (congrFun (out17_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t)) (ix2 p r)).trans ?_
  refine (readout_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) p r).trans ?_
  rw [params_blk m c t]
  exact yOut_rows (θ m c) _ _ _ (X m c) (H m c) (C m c) p (node t p) (xrow m c t p) (hrow m c t p) (crow m c t p) r

/-! ## What point `t` writes back is block `t` of the cell's array -/

theorem flushed19_eq : (dats m 0 c).flushed 19 t
    = ((cfg0.win 19).blk t).view.read (Elt Ideal) (cArr (θ m c) (X m c) (H m c) (C m c)) := by
  rw [Value.flushed19]
  funext j
  obtain ⟨p, q, rfl⟩ : ∃ (p : Fin 5000) (q : Fin 32), j = ix2 p q := ⟨j 0, j 1, eq_ix2 j⟩
  show out0_19 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) (ix2 p q)
      = cArr (θ m c) (X m c) (H m c) (C m c) (((cfg0.win 19).blk t).view.emb (ix2 p q))
  rw [emb19 t p q, cArr_apply]
  exact point19 m c t p q

theorem flushed18_eq : (dats m 0 c).flushed 18 t
    = ((cfg0.win 18).blk t).view.read (Elt Ideal) (hArr (θ m c) (X m c) (H m c) (C m c)) := by
  rw [Value.flushed18]
  funext j
  obtain ⟨p, q, rfl⟩ : ∃ (p : Fin 5000) (q : Fin 32), j = ix2 p q := ⟨j 0, j 1, eq_ix2 j⟩
  show out0_18 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) (ix2 p q)
      = hArr (θ m c) (X m c) (H m c) (C m c) (((cfg0.win 18).blk t).view.emb (ix2 p q))
  rw [emb18 t p q, hArr_apply]
  exact point18 m c t p q

theorem flushed17_eq : (dats m 0 c).flushed 17 t
    = ((cfg0.win 17).blk t).view.read (Elt Ideal) (yArr (θ m c) (X m c) (H m c) (C m c)) := by
  rw [Value.flushed17]
  funext j
  obtain ⟨p, r, rfl⟩ : ∃ (p : Fin 5000) (r : Fin 2), j = ix2 p r := ⟨j 0, j 1, eq_ix2 j⟩
  show out0_17 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) (ix2 p r)
      = yArr (θ m c) (X m c) (H m c) (C m c) (((cfg0.win 17).blk t).view.emb (ix2 p r))
  rw [emb17 t p r, yArr_apply]
  exact point17 m c t p r

/-! ## The blocks cover the arrays -/

/-- The point whose block holds row `P`. -/
def pointOf (P : ℕ) (hP : P < 500000) : Fin cfg0.N := ⟨P / 5000, by rw [show cfg0.N = 100 from N_0]; omega⟩

theorem mem_blk19 (i : S500000x32.Idx) :
    i ∈ ((cfg0.win 19).blk t).view.set ↔ ∀ a : Fin 2, win0_19.index t a * S5000x32.size a ≤ (i a).val
      ∧ (i a).val < win0_19.index t a * S5000x32.size a + S5000x32.size a := by
  show i ∈ ((View.whole main_v9_2).slice (win0_19.rect t)).set ↔ _
  rw [View.set_slice_whole, Rect.mem_set_unit]
  exact Iff.rfl

theorem mem_blk18 (i : S500000x32.Idx) :
    i ∈ ((cfg0.win 18).blk t).view.set ↔ ∀ a : Fin 2, win0_18.index t a * S5000x32.size a ≤ (i a).val
      ∧ (i a).val < win0_18.index t a * S5000x32.size a + S5000x32.size a := by
  show i ∈ ((View.whole main_v9_1).slice (win0_18.rect t)).set ↔ _
  rw [View.set_slice_whole, Rect.mem_set_unit]
  exact Iff.rfl

theorem mem_blk17 (i : S500000x2.Idx) :
    i ∈ ((cfg0.win 17).blk t).view.set ↔ ∀ a : Fin 2, win0_17.index t a * S5000x2.size a ≤ (i a).val
      ∧ (i a).val < win0_17.index t a * S5000x2.size a + S5000x2.size a := by
  show i ∈ ((View.whole main_v9_0).slice (win0_17.rect t)).set ↔ _
  rw [View.set_slice_whole, Rect.mem_set_unit]
  exact Iff.rfl

theorem cover19 (i : S500000x32.Idx) : ∃ t : Fin cfg0.N, (cfg0.win 19).flush t = true ∧ i ∈ ((cfg0.win 19).blk t).view.set := by
  have hi0 : (i 0).val < 500000 := (i 0).isLt
  have hi1 : (i 1).val < 32 := (i 1).isLt
  have e := (idx_rows (pointOf (i 0).val hi0)).2.2.2.2.2
  refine ⟨pointOf (i 0).val hi0, flush0_19 _, ?_⟩
  rw [mem_blk19]
  intro a
  match a with
  | ⟨0, _⟩ =>
    show win0_19.index (pointOf (i 0).val hi0) (0 : Fin 2) * 5000 ≤ (i 0).val
      ∧ (i 0).val < win0_19.index (pointOf (i 0).val hi0) (0 : Fin 2) * 5000 + 5000
    rw [e.1]
    show (i 0).val / 5000 * 5000 ≤ (i 0).val ∧ (i 0).val < (i 0).val / 5000 * 5000 + 5000
    omega
  | ⟨1, _⟩ =>
    show win0_19.index (pointOf (i 0).val hi0) (1 : Fin 2) * 32 ≤ (i 1).val
      ∧ (i 1).val < win0_19.index (pointOf (i 0).val hi0) (1 : Fin 2) * 32 + 32
    rw [e.2]
    omega

theorem cover18 (i : S500000x32.Idx) : ∃ t : Fin cfg0.N, (cfg0.win 18).flush t = true ∧ i ∈ ((cfg0.win 18).blk t).view.set := by
  have hi0 : (i 0).val < 500000 := (i 0).isLt
  have hi1 : (i 1).val < 32 := (i 1).isLt
  have e := (idx_rows (pointOf (i 0).val hi0)).2.2.2.2.1
  refine ⟨pointOf (i 0).val hi0, flush0_18 _, ?_⟩
  rw [mem_blk18]
  intro a
  match a with
  | ⟨0, _⟩ =>
    show win0_18.index (pointOf (i 0).val hi0) (0 : Fin 2) * 5000 ≤ (i 0).val
      ∧ (i 0).val < win0_18.index (pointOf (i 0).val hi0) (0 : Fin 2) * 5000 + 5000
    rw [e.1]
    show (i 0).val / 5000 * 5000 ≤ (i 0).val ∧ (i 0).val < (i 0).val / 5000 * 5000 + 5000
    omega
  | ⟨1, _⟩ =>
    show win0_18.index (pointOf (i 0).val hi0) (1 : Fin 2) * 32 ≤ (i 1).val
      ∧ (i 1).val < win0_18.index (pointOf (i 0).val hi0) (1 : Fin 2) * 32 + 32
    rw [e.2]
    omega

theorem cover17 (i : S500000x2.Idx) : ∃ t : Fin cfg0.N, (cfg0.win 17).flush t = true ∧ i ∈ ((cfg0.win 17).blk t).view.set := by
  have hi0 : (i 0).val < 500000 := (i 0).isLt
  have hi1 : (i 1).val < 2 := (i 1).isLt
  have e := (idx_rows (pointOf (i 0).val hi0)).2.2.2.1
  refine ⟨pointOf (i 0).val hi0, flush0_17 _, ?_⟩
  rw [mem_blk17]
  intro a
  match a with
  | ⟨0, _⟩ =>
    show win0_17.index (pointOf (i 0).val hi0) (0 : Fin 2) * 5000 ≤ (i 0).val
      ∧ (i 0).val < win0_17.index (pointOf (i 0).val hi0) (0 : Fin 2) * 5000 + 5000
    rw [e.1]
    show (i 0).val / 5000 * 5000 ≤ (i 0).val ∧ (i 0).val < (i 0).val / 5000 * 5000 + 5000
    omega
  | ⟨1, _⟩ =>
    show win0_17.index (pointOf (i 0).val hi0) (1 : Fin 2) * 2 ≤ (i 1).val
      ∧ (i 1).val < win0_17.index (pointOf (i 0).val hi0) (1 : Fin 2) * 2 + 2
    rw [e.2]
    omega

/-! ## The arrays after the run -/

theorem final19 : (dats m 0 c).arrAt 19 cfg0.N = cArr (θ m c) (X m c) (H m c) (C m c) :=
  (dats m 0 c).arrAt_eq_of_cover 19 (cArr (θ m c) (X m c) (H m c) (C m c)) (fun t _ => flushed19_eq m c t) cover19

theorem final18 : (dats m 0 c).arrAt 18 cfg0.N = hArr (θ m c) (X m c) (H m c) (C m c) :=
  (dats m 0 c).arrAt_eq_of_cover 18 (hArr (θ m c) (X m c) (H m c) (C m c)) (fun t _ => flushed18_eq m c t) cover18

theorem final17 : (dats m 0 c).arrAt 17 cfg0.N = yArr (θ m c) (X m c) (H m c) (C m c) :=
  (dats m 0 c).arrAt_eq_of_cover 17 (yArr (θ m c) (X m c) (H m c) (C m c)) (fun t _ => flushed17_eq m c t) cover17

end Cert.KernelIdeal.CellValue

end
-- ==== Proof.RefCell.lean ====
/-
  The reference program's three results are the cell's three arrays.

  The reference computes, for each of the four gates, the two matrix products over all nodes at once, adds them, adds
  the recurrent bias (a vector laid as a row and spread over the nodes) and then the input bias (a row spread over the
  nodes); three gates go through `1 / (1 + e^(-z))`, the candidate through `tanh`. That sub-term is named once
  (`hostPre`, `hostSig`) and read at an entry once: a matrix product at `(P, q)` is the sum over the contracted index, a
  spread row at `(P, q)` is the row at `q`, and the two bias summands regroup. The rest is entry by entry.
-/
import proofs.«148267_j74887049773819_1_alg».proof.Proof.Gen.ReferenceIdeal
import proofs.«148267_j74887049773819_1_alg».proof.Proof.Cell
import proofs.«148267_j74887049773819_1_alg».proof.Proof.LibPlainDot
import proofs.«148267_j74887049773819_1_alg».proof.Proof.LibBroadcastInDim

noncomputable section

open scoped BigOperators

namespace Cert.ReferenceIdeal.RefValue

open Cert.ReferenceIdeal Cert.ReferenceIdeal.Gen Idealize.ShloMosaic Idealize.ShloMosaic.ValueIdx Idealize.ShloMosaic.ValueLayout Cert.Cell

/-- An array of extended reals of a given shape. -/
abbrev A (s : Shape) : Type := FVec Ideal s .f32

/-- The reference's arguments, the edge list left out (nothing reads it). -/
structure Args where
  x : A S500000x165
  h : A S500000x32
  c : A S500000x32
  Wi : A S165x32
  Wf : A S165x32
  Wc : A S165x32
  Wo : A S165x32
  bi : A S1x32
  bf : A S1x32
  bc : A S1x32
  bo : A S1x32
  Ui : A S32x32
  Uf : A S32x32
  Uc : A S32x32
  Uo : A S32x32
  di : A S32
  df : A S32
  dc : A S32
  dO : A S32
  Wl : A S32x2
  bl : A S2

/-- The cell's parameters, read off the arguments. -/
def params (a : Args) : Params :=
  ⟨Gate.ofBiases a.Wi a.Ui a.bi a.di, Gate.ofBiases a.Wf a.Uf a.bf a.df, Gate.ofBiases a.Wc a.Uc a.bc a.dc,
    Gate.ofBiases a.Wo a.Uo a.bo a.dO, a.Wl, fun r => a.bl (ix1 r)⟩

/-! ## One gate's pre-activation and the logistic function, as the reference spells them -/

/-- A gate's pre-activation over all nodes: the two products, the recurrent bias, the input bias. -/
def hostPre (x : A S500000x165) (h : A S500000x32) (W : A S165x32) (U : A S32x32) (b : A S1x32) (d : A S32) : A S500000x32 :=
  addf (addf (addf (Host.dotGeneral dot_S500000x165_S165x32_S500000x32_1_0_0_1_n_n none x W)
        (Host.dotGeneral dot_S500000x32_S32x32_S500000x32_1_0_0_1_n_n none h U))
      (broadcastInDim S500000x32 ![0, 1] bcast_S1x32_S500000x32_0_1 (broadcastInDim S1x32 ![1] bcast_S32_S1x32_1 d)))
    (broadcastInDim S500000x32 ![0, 1] bcast_S1x32_S500000x32_0_1 b)

/-- `1 / (1 + e^(-z))`, entry by entry, with the literal `1.0` spread over the array. -/
def hostSig (z : A S500000x32) : A S500000x32 :=
  Host.divf (broadcastInDim S500000x32 ![] bcast_S_S500000x32 (constant (F := Ideal) S_ .f32 0x3F800000#32))
    (addf (broadcastInDim S500000x32 ![] bcast_S_S500000x32 (constant (F := Ideal) S_ .f32 0x3F800000#32)) (Host.exp (Host.negf z)))

theorem plain_x : PlainDot.IsPlain dot_S500000x165_S165x32_S500000x32_1_0_0_1_n_n := ⟨rfl, rfl, rfl, rfl, rfl, rfl⟩
theorem plain_h : PlainDot.IsPlain dot_S500000x32_S32x32_S500000x32_1_0_0_1_n_n := ⟨rfl, rfl, rfl, rfl, rfl, rfl⟩
theorem plain_l : PlainDot.IsPlain dot_S500000x32_S32x2_S500000x2_1_0_0_1_n_n := ⟨rfl, rfl, rfl, rfl, rfl, rfl⟩

/-- The pre-activation at node `P`, unit `q` is the gate's, the two biases regrouped. -/
theorem hostPre_apply (x : A S500000x165) (h : A S500000x32) (W : A S165x32) (U : A S32x32) (b : A S1x32) (d : A S32)
    (P : Fin 500000) (q : Fin 32) : hostPre x h W U b d (ix2 P q) = (Gate.ofBiases W U b d).pre x h P q := by
  have e1 := PlainDot.dotGeneral_apply plain_x none .single x W P q
  have e2 := PlainDot.dotGeneral_apply plain_h none .single h U P q
  have e3 : broadcastInDim S500000x32 ![0, 1] bcast_S1x32_S500000x32_0_1 (broadcastInDim S1x32 ![1] bcast_S32_S1x32_1 d) (ix2 P q)
      = d (ix1 q) :=
    (bcast_1n_rn_apply bcast_S1x32_S500000x32_0_1 _ P q).trans (bcast_n_1n_apply bcast_S32_S1x32_1 d 0 q)
  have e4 : broadcastInDim S500000x32 ![0, 1] bcast_S1x32_S500000x32_0_1 b (ix2 P q) = b (ix2 (0 : Fin 1) q) :=
    bcast_1n_rn_apply bcast_S1x32_S500000x32_0_1 b P q
  unfold hostPre
  rw [addf_apply, addf_apply, addf_apply]
  refine (congrArg₂ (· + ·) (congrArg₂ (· + ·) (congrArg₂ (· + ·) e1 e2) e3) e4).trans ?_
  exact add_two_biases _ _ _

/-- The spelt-out logistic function is the logistic function, at every entry. -/
theorem hostSig_apply (z : A S500000x32) (i : S500000x32.Idx) : hostSig z i = Ideal.logistic (z i) :=
  logistic_eq_host (z i)

/-! ## The three results as the reference composes them -/

/-- The new cell state over all nodes. -/
def hostC (a : Args) : A S500000x32 :=
  addf (mulf (hostSig (hostPre a.x a.h a.Wf a.Uf a.bf a.df)) a.c)
    (mulf (hostSig (hostPre a.x a.h a.Wi a.Ui a.bi a.di)) (Host.tanh (hostPre a.x a.h a.Wc a.Uc a.bc a.dc)))

/-- The new hidden state over all nodes. -/
def hostH (a : Args) : A S500000x32 :=
  mulf (hostSig (hostPre a.x a.h a.Wo a.Uo a.bo a.dO)) (Host.tanh (hostC a))

/-- The read-out over all nodes. -/
def hostY (a : Args) : A S500000x2 :=
  addf (Host.dotGeneral dot_S500000x32_S32x2_S500000x2_1_0_0_1_n_n none
      (maximumf (hostH a) (broadcastInDim S500000x32 ![] bcast_S_S500000x32 (constant (F := Ideal) S_ .f32 0x00000000#32))) a.Wl)
    (broadcastInDim S500000x2 ![0, 1] bcast_S1x2_S500000x2_0_1 (broadcastInDim S1x2 ![1] bcast_S2_S1x2_1 a.bl))

theorem hostC_apply (a : Args) (P : Fin 500000) (q : Fin 32) : hostC a (ix2 P q) = cNew (params a) a.x a.h a.c P q := by
  unfold hostC
  rw [addf_apply, mulf_apply, mulf_apply, hostSig_apply, hostSig_apply, hostPre_apply, hostPre_apply]
  show _ * _ + _ * Ideal.tanh (hostPre a.x a.h a.Wc a.Uc a.bc a.dc (ix2 P q)) = _
  rw [hostPre_apply]
  rfl

theorem hostC_eq (a : Args) : hostC a = cArr (params a) a.x a.h a.c := by
  funext j
  obtain ⟨P, q, rfl⟩ : ∃ (P : Fin 500000) (q : Fin 32), j = ix2 P q := ⟨j 0, j 1, eq_ix2 j⟩
  exact hostC_apply a P q

theorem hostH_apply (a : Args) (P : Fin 500000) (q : Fin 32) : hostH a (ix2 P q) = hNew (params a) a.x a.h a.c P q := by
  unfold hostH
  rw [mulf_apply, hostSig_apply, hostPre_apply]
  show _ * Ideal.tanh (hostC a (ix2 P q)) = _
  rw [hostC_apply]
  rfl

theorem hostH_eq (a : Args) : hostH a = hArr (params a) a.x a.h a.c := by
  funext j
  obtain ⟨P, q, rfl⟩ : ∃ (P : Fin 500000) (q : Fin 32), j = ix2 P q := ⟨j 0, j 1, eq_ix2 j⟩
  exact hostH_apply a P q

theorem hostY_apply (a : Args) (P : Fin 500000) (r : Fin 2) : hostY a (ix2 P r) = yOut (params a) a.x a.h a.c P r := by
  have e1 := PlainDot.dotGeneral_apply plain_l none .single
    (maximumf (hostH a) (broadcastInDim S500000x32 ![] bcast_S_S500000x32 (constant (F := Ideal) S_ .f32 0x00000000#32))) a.Wl P r
  have e2 : broadcastInDim S500000x2 ![0, 1] bcast_S1x2_S500000x2_0_1 (broadcastInDim S1x2 ![1] bcast_S2_S1x2_1 a.bl) (ix2 P r)
      = a.bl (ix1 r) :=
    (bcast_1n_rn_apply bcast_S1x2_S500000x2_0_1 _ P r).trans (bcast_n_1n_apply bcast_S2_S1x2_1 a.bl 0 r)
  unfold hostY
  rw [addf_apply]
  refine (congrArg₂ (· + ·) e1 e2).trans ?_
  unfold yOut
  refine congrArg (· + a.bl (ix1 r)) (Finset.sum_congr rfl fun k _ => ?_)
  show max (hostH a (ix2 P k)) (Ideal.ofBits .f32 0x00000000#32) * _ = _
  rw [hostH_apply]
  rfl

theorem hostY_eq (a : Args) : hostY a = yArr (params a) a.x a.h a.c := by
  funext j
  obtain ⟨P, r, rfl⟩ : ∃ (P : Fin 500000) (r : Fin 2), j = ix2 P r := ⟨j 0, j 1, eq_ix2 j⟩
  exact hostY_apply a P r

end Cert.ReferenceIdeal.RefValue

end
-- ==== Proof.lean ====
/-
  One step of a gated recurrent cell over 500000 graph nodes with a rectified linear read-out: the kernel against the
  plain array program, equal as extended reals.

  For every node `P` with feature row `x_P`, hidden row `h_P` and cell row `c_P`, and for each of the four gates with
  input weights `W`, recurrent weights `U` and two bias summands `b`, `d`, the pre-activation of unit `q` is
  `x_P · W[:, q] + h_P · U[:, q] + (b_q + d_q)`; the new cell state is `σ(f) c + σ(i) tanh(g)`, the new hidden state
  `σ(o) tanh(c')`, the read-out `max(h', 0) · W_lin + b_lin` (Proof/Cell.lean). The edge list is an argument neither
  program reads.

  The kernel adds `b + d` on the host, then walks the nodes 5000 rows at a time with all parameters resident; a block's
  results depend on the block's own rows only, so block `t` of each result array is the cell's value on rows
  `5000 t …`, and the 100 blocks cover the arrays (Proof/KernelCell.lean, Proof/KernelArr.lean, Proof/KernelRun.lean).
  The reference computes every gate over all nodes at once, adds `d` and then `b`, and spells the logistic function as
  `1 / (1 + e^(-z))` (Proof/RefCell.lean). On the extended reals the two bias orders agree because addition is
  commutative and associative without exception, the spelt-out logistic function is the logistic function, and a
  matrix product is the same finite sum on both sides; no step needs the inputs to be finite, so the precondition is
  never opened.

  The kernel's idealization rewrote nothing, so `preserves` is trivial. The frames of the two kernel programs are the
  generated ones; the reference's frame is its generated run with the results dropped.
-/
import proofs.«148267_j74887049773819_1_alg».proof.Defs
import proofs.«148267_j74887049773819_1_alg».proof.Proof.Gen.Kernel
import proofs.«148267_j74887049773819_1_alg».proof.Proof.Gen.Kernel.Skeleton
import proofs.«148267_j74887049773819_1_alg».proof.Proof.Gen.Kernel.Launch
import proofs.«148267_j74887049773819_1_alg».proof.Proof.Gen.Kernel.Points
import proofs.«148267_j74887049773819_1_alg».proof.Proof.Gen.Kernel.Frame
import proofs.«148267_j74887049773819_1_alg».proof.Proof.Gen.KernelIdeal
import proofs.«148267_j74887049773819_1_alg».proof.Proof.Gen.KernelIdeal.Skeleton
import proofs.«148267_j74887049773819_1_alg».proof.Proof.Gen.KernelIdeal.Launch
import proofs.«148267_j74887049773819_1_alg».proof.Proof.Gen.KernelIdeal.Points
import proofs.«148267_j74887049773819_1_alg».proof.Proof.Gen.KernelIdeal.Frame
import proofs.«148267_j74887049773819_1_alg».proof.Proof.Gen.ReferenceIdeal
import proofs.«148267_j74887049773819_1_alg».proof.Proof.Gen.Pre_finite_inputs
import proofs.«148267_j74887049773819_1_alg».proof.Proof.Gen.KernelIdeal.Value
import proofs.«148267_j74887049773819_1_alg».proof.Proof.Gen.ReferenceIdeal.Run
import proofs.«148267_j74887049773819_1_alg».proof.Proof.KernelRun
import proofs.«148267_j74887049773819_1_alg».proof.Proof.RefCell
import Idealize.ShloMosaic.Adequacy
import Idealize.ShloMosaic.Init

noncomputable section

namespace Cert.Proof

open Idealize.ShloMosaic Idealize.ShloMosaic.TcCoe Idealize.SL.Sem Cert.Cell

/-- The reference's arguments, as it is launched with them. -/
abbrev refArgs (m' : (ℓ : Loc Cert.ReferenceIdeal.nD Cert.ReferenceIdeal.τ Cert.ReferenceIdeal.sig) → Buf (Elt Ideal) ℓ)
    (c : Dev Cert.ReferenceIdeal.nD) : Cert.ReferenceIdeal.RefValue.Args :=
  ⟨(m' ((c.tc : Thread Cert.ReferenceIdeal.nD Cert.ReferenceIdeal.τ).loc Cert.ReferenceIdeal.main_arg0)), (m' ((c.tc : Thread Cert.ReferenceIdeal.nD Cert.ReferenceIdeal.τ).loc Cert.ReferenceIdeal.main_arg3)), (m' ((c.tc : Thread Cert.ReferenceIdeal.nD Cert.ReferenceIdeal.τ).loc Cert.ReferenceIdeal.main_arg4)),
   (m' ((c.tc : Thread Cert.ReferenceIdeal.nD Cert.ReferenceIdeal.τ).loc Cert.ReferenceIdeal.main_arg5)), (m' ((c.tc : Thread Cert.ReferenceIdeal.nD Cert.ReferenceIdeal.τ).loc Cert.ReferenceIdeal.main_arg6)), (m' ((c.tc : Thread Cert.ReferenceIdeal.nD Cert.ReferenceIdeal.τ).loc Cert.ReferenceIdeal.main_arg7)), (m' ((c.tc : Thread Cert.ReferenceIdeal.nD Cert.ReferenceIdeal.τ).loc Cert.ReferenceIdeal.main_arg8)),
   (m' ((c.tc : Thread Cert.ReferenceIdeal.nD Cert.ReferenceIdeal.τ).loc Cert.ReferenceIdeal.main_arg9)), (m' ((c.tc : Thread Cert.ReferenceIdeal.nD Cert.ReferenceIdeal.τ).loc Cert.ReferenceIdeal.main_arg10)), (m' ((c.tc : Thread Cert.ReferenceIdeal.nD Cert.ReferenceIdeal.τ).loc Cert.ReferenceIdeal.main_arg11)), (m' ((c.tc : Thread Cert.ReferenceIdeal.nD Cert.ReferenceIdeal.τ).loc Cert.ReferenceIdeal.main_arg12)),
   (m' ((c.tc : Thread Cert.ReferenceIdeal.nD Cert.ReferenceIdeal.τ).loc Cert.ReferenceIdeal.main_arg13)), (m' ((c.tc : Thread Cert.ReferenceIdeal.nD Cert.ReferenceIdeal.τ).loc Cert.ReferenceIdeal.main_arg14)), (m' ((c.tc : Thread Cert.ReferenceIdeal.nD Cert.ReferenceIdeal.τ).loc Cert.ReferenceIdeal.main_arg15)), (m' ((c.tc : Thread Cert.ReferenceIdeal.nD Cert.ReferenceIdeal.τ).loc Cert.ReferenceIdeal.main_arg16)),
   (m' ((c.tc : Thread Cert.ReferenceIdeal.nD Cert.ReferenceIdeal.τ).loc Cert.ReferenceIdeal.main_arg17)), (m' ((c.tc : Thread Cert.ReferenceIdeal.nD Cert.ReferenceIdeal.τ).loc Cert.ReferenceIdeal.main_arg18)), (m' ((c.tc : Thread Cert.ReferenceIdeal.nD Cert.ReferenceIdeal.τ).loc Cert.ReferenceIdeal.main_arg19)), (m' ((c.tc : Thread Cert.ReferenceIdeal.nD Cert.ReferenceIdeal.τ).loc Cert.ReferenceIdeal.main_arg20)),
   (m' ((c.tc : Thread Cert.ReferenceIdeal.nD Cert.ReferenceIdeal.τ).loc Cert.ReferenceIdeal.main_arg21)), (m' ((c.tc : Thread Cert.ReferenceIdeal.nD Cert.ReferenceIdeal.τ).loc Cert.ReferenceIdeal.main_arg22))⟩

/-- The kernel's arguments, in the same record. -/
abbrev kerArgs (m : (ℓ : Loc Cert.KernelIdeal.nD Cert.KernelIdeal.τ Cert.KernelIdeal.sig) → Buf (Elt Ideal) ℓ)
    (c : Dev Cert.KernelIdeal.nD) : Cert.ReferenceIdeal.RefValue.Args :=
  ⟨(m ((c.tc : Thread Cert.KernelIdeal.nD Cert.KernelIdeal.τ).loc Cert.KernelIdeal.main_arg0)), (m ((c.tc : Thread Cert.KernelIdeal.nD Cert.KernelIdeal.τ).loc Cert.KernelIdeal.main_arg3)), (m ((c.tc : Thread Cert.KernelIdeal.nD Cert.KernelIdeal.τ).loc Cert.KernelIdeal.main_arg4)),
   (m ((c.tc : Thread Cert.KernelIdeal.nD Cert.KernelIdeal.τ).loc Cert.KernelIdeal.main_arg5)), (m ((c.tc : Thread Cert.KernelIdeal.nD Cert.KernelIdeal.τ).loc Cert.KernelIdeal.main_arg6)), (m ((c.tc : Thread Cert.KernelIdeal.nD Cert.KernelIdeal.τ).loc Cert.KernelIdeal.main_arg7)), (m ((c.tc : Thread Cert.KernelIdeal.nD Cert.KernelIdeal.τ).loc Cert.KernelIdeal.main_arg8)),
   (m ((c.tc : Thread Cert.KernelIdeal.nD Cert.KernelIdeal.τ).loc Cert.KernelIdeal.main_arg9)), (m ((c.tc : Thread Cert.KernelIdeal.nD Cert.KernelIdeal.τ).loc Cert.KernelIdeal.main_arg10)), (m ((c.tc : Thread Cert.KernelIdeal.nD Cert.KernelIdeal.τ).loc Cert.KernelIdeal.main_arg11)), (m ((c.tc : Thread Cert.KernelIdeal.nD Cert.KernelIdeal.τ).loc Cert.KernelIdeal.main_arg12)),
   (m ((c.tc : Thread Cert.KernelIdeal.nD Cert.KernelIdeal.τ).loc Cert.KernelIdeal.main_arg13)), (m ((c.tc : Thread Cert.KernelIdeal.nD Cert.KernelIdeal.τ).loc Cert.KernelIdeal.main_arg14)), (m ((c.tc : Thread Cert.KernelIdeal.nD Cert.KernelIdeal.τ).loc Cert.KernelIdeal.main_arg15)), (m ((c.tc : Thread Cert.KernelIdeal.nD Cert.KernelIdeal.τ).loc Cert.KernelIdeal.main_arg16)),
   (m ((c.tc : Thread Cert.KernelIdeal.nD Cert.KernelIdeal.τ).loc Cert.KernelIdeal.main_arg17)), (m ((c.tc : Thread Cert.KernelIdeal.nD Cert.KernelIdeal.τ).loc Cert.KernelIdeal.main_arg18)), (m ((c.tc : Thread Cert.KernelIdeal.nD Cert.KernelIdeal.τ).loc Cert.KernelIdeal.main_arg19)), (m ((c.tc : Thread Cert.KernelIdeal.nD Cert.KernelIdeal.τ).loc Cert.KernelIdeal.main_arg20)),
   (m ((c.tc : Thread Cert.KernelIdeal.nD Cert.KernelIdeal.τ).loc Cert.KernelIdeal.main_arg21)), (m ((c.tc : Thread Cert.KernelIdeal.nD Cert.KernelIdeal.τ).loc Cert.KernelIdeal.main_arg22))⟩

section agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : refArgs m' c = kerArgs m c)

open Cert.KernelIdeal.CellValue Cert.ReferenceIdeal.RefValue

include hag in
/-- From agreeing arguments the reference's read-out is the cell's read-out of the kernel's arguments. -/
theorem ref_y : hostY (refArgs m' c) = yArr (θ m c) (X m c) (H m c) (C m c) :=
  (hostY_eq (refArgs m' c)).trans (by rw [hag]; rfl)

include hag in
theorem ref_h : hostH (refArgs m' c) = hArr (θ m c) (X m c) (H m c) (C m c) :=
  (hostH_eq (refArgs m' c)).trans (by rw [hag]; rfl)

include hag in
theorem ref_c : hostC (refArgs m' c) = cArr (θ m c) (X m c) (H m c) (C m c) :=
  (hostC_eq (refArgs m' c)).trans (by rw [hag]; rfl)

end agree

theorem frame_k : Cert.frame_Kernel := fun m ρ _ => Cert.Kernel.Gen.frame m ρ

theorem frame_ki : Cert.frame_KernelIdeal := fun m ρ _ => Cert.KernelIdeal.Gen.frame m ρ

/-- The reference's generated run, its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation of the kernel. -/
theorem preserves : Cert.preserves_Kernel_KernelIdeal := trivial

/-- Both programs end with the cell's three arrays of the arguments: the kernel block by block, the reference array by
    array, from arguments that agree. -/
theorem algebraic : Cert.algebraic_KernelIdeal_ReferenceIdeal := by
  intro m ρ m' ρ' _ hagree
  have hargs : ∀ c, refArgs m' c = kerArgs m c := fun c => by
    obtain ⟨a0, a1, a2, a3, a4, a5, a6, a7, a8, a9, a10, a11, a12, a13, a14, a15, a16, a17, a18, a19, a20, a21, a22⟩ := hagree c
    dsimp only [refArgs, kerArgs]
    rw [a0, a3, a4, a5, a6, a7, a8, a9, a10, a11, a12, a13, a14, a15, a16, a17, a18, a19, a20, a21, a22]
  exact ⟨_, _, _,
    (θ_run Cert.KernelIdeal.defs _ _).mono (fun r h c =>
      ⟨(h c).1.trans (Cert.KernelIdeal.CellValue.final17 m c), (h c).2.1.trans (Cert.KernelIdeal.CellValue.final18 m c),
        (h c).2.2.1.trans (Cert.KernelIdeal.CellValue.final19 m c), (h c).2.2.2⟩)
      (Cert.KernelIdeal.Value.run_blocks m ρ),
    (θ_run Cert.ReferenceIdeal.defs _ _).mono (fun _ h c =>
      ⟨(h c).1.trans (ref_y m m' c (hargs c)), (h c).2.1.trans (ref_h m m' c (hargs c)),
        (h c).2.2.1.trans (ref_c m m' c (hargs c)), (h c).2.2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
